-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x1x50 : Shape := ⟨3, ![4096, 1, 50]⟩
abbrev S100000x64 : Shape := ⟨2, ![100000, 64]⟩
abbrev S384x256 : Shape := ⟨2, ![384, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg9 : FVec F S256x1 .f32) (main_arg10 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg9
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg10
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : IVec S4096x1 32) (main_arg1 : IVec S4096x1 32) (main_arg2 : IVec S4096x1x50 32) (main_arg3 : IVec S4096x1x50 32) (main_arg4 : IVec S4096x1x50 1) (main_arg5 : FVec F S100000x64 .f32) (main_arg6 : FVec F S100000x64 .f32) (main_arg7 : FVec F S384x256 .f32) (main_arg8 : FVec F S256 .f32) (main_arg9 : FVec F S256x1 .f32) (main_arg10 : FVec F S1 .f32) : IVec S_ 1 :=
  let main_v0 : FVec F S100000x64 .f32 := Host.absf main_arg5
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg6
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S384x256 .f32 := Host.absf main_arg7
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg8
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg9 main_arg10 main_v13 main_v16
-- ==== Kernel.lean ====
abbrev S4096x1 : Shape := ⟨2, ![4096, 1]⟩
abbrev S4096x1x50 : Shape := ⟨3, ![4096, 1, 50]⟩
abbrev S100000x64 : Shape := ⟨2, ![100000, 64]⟩
abbrev S384x256 : Shape := ⟨2, ![384, 256]⟩
abbrev S256 : Shape := ⟨1, ![256]⟩
abbrev S256x1 : Shape := ⟨2, ![256, 1]⟩
abbrev S1 : Shape := ⟨1, ![1]⟩
abbrev S4096 : Shape := ⟨1, ![4096]⟩
abbrev S_ : Shape := ⟨0, ![]⟩
abbrev S4096x64 : Shape := ⟨2, ![4096, 64]⟩
abbrev S4096x128 : Shape := ⟨2, ![4096, 128]⟩
abbrev S4096x50 : Shape := ⟨2, ![4096, 50]⟩
abbrev S4096x50x1 : Shape := ⟨3, ![4096, 50, 1]⟩
abbrev S4096x50x64 : Shape := ⟨3, ![4096, 50, 64]⟩
abbrev S4096x50x128 : Shape := ⟨3, ![4096, 50, 128]⟩
abbrev S128x256 : Shape := ⟨2, ![128, 256]⟩
abbrev S1x256 : Shape := ⟨2, ![1, 256]⟩
abbrev S1x1 : Shape := ⟨2, ![1, 1]⟩
abbrev S64x128 : Shape := ⟨2, ![64, 128]⟩
abbrev S64x50x128 : Shape := ⟨3, ![64, 50, 128]⟩
abbrev S64x50x1 : Shape := ⟨3, ![64, 50, 1]⟩
abbrev S64x256 : Shape := ⟨2, ![64, 256]⟩
abbrev S3200x128 : Shape := ⟨2, ![3200, 128]⟩
abbrev S3200x256 : Shape := ⟨2, ![3200, 256]⟩
abbrev S64x50x256 : Shape := ⟨3, ![64, 50, 256]⟩
abbrev S64x1x128 : Shape := ⟨3, ![64, 1, 128]⟩
abbrev S64x1x256 : Shape := ⟨3, ![64, 1, 256]⟩
abbrev S1x1x256 : Shape := ⟨3, ![1, 1, 256]⟩
abbrev S3200x1 : Shape := ⟨2, ![3200, 1]⟩
abbrev S4096x1x128 : Shape := ⟨3, ![4096, 1, 128]⟩

abbrev nBuf : Space → Nat
  | .hbm => 67
  | .vmem => 14
  | .smem => 0
  | _ => 0

abbrev bufTy : (tb : Table) → Fin (tcTables nBuf tb) → BufTy
  | .hbm, ⟨0, _⟩ => ⟨S4096x1, .i32⟩
  | .hbm, ⟨1, _⟩ => ⟨S4096x1, .i32⟩
  | .hbm, ⟨2, _⟩ => ⟨S4096x1x50, .i32⟩
  | .hbm, ⟨3, _⟩ => ⟨S4096x1x50, .i32⟩
  | .hbm, ⟨4, _⟩ => ⟨S4096x1x50, .i1⟩
  | .hbm, ⟨5, _⟩ => ⟨S100000x64, .f32⟩
  | .hbm, ⟨6, _⟩ => ⟨S100000x64, .f32⟩
  | .hbm, ⟨7, _⟩ => ⟨S384x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x64, .f32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x64, .f32⟩
  | .hbm, ⟨31, _⟩ => ⟨S4096x128, .f32⟩
  | .hbm, ⟨32, _⟩ => ⟨S4096x50, .i32⟩
  | .hbm, ⟨33, _⟩ => ⟨S_, .i32⟩
  | .hbm, ⟨34, _⟩ => ⟨S4096x50, .i32⟩
  | .hbm, ⟨35, _⟩ => ⟨S4096x50, .i1⟩
  | .hbm, ⟨36, _⟩ => ⟨S_, .i32⟩
  | .hbm, ⟨37, _⟩ => ⟨S4096x50, .i32⟩
  | .hbm, ⟨38, _⟩ => ⟨S4096x50, .i32⟩
  | .hbm, ⟨39, _⟩ => ⟨S4096x50, .i32⟩
  | .hbm, ⟨40, _⟩ => ⟨S4096x50x1, .i32⟩
  | .hbm, ⟨41, _⟩ => ⟨S4096x50x64, .f32⟩
  | .hbm, ⟨42, _⟩ => ⟨S4096x50, .i32⟩
  | .hbm, ⟨43, _⟩ => ⟨S_, .i32⟩
  | .hbm, ⟨44, _⟩ => ⟨S4096x50, .i32⟩
  | .hbm, ⟨45, _⟩ => ⟨S4096x50, .i1⟩
  | .hbm, ⟨46, _⟩ => ⟨S_, .i32⟩
  | .hbm, ⟨47, _⟩ => ⟨S4096x50, .i32⟩
  | .hbm, ⟨48, _⟩ => ⟨S4096x50, .i32⟩
  | .hbm, ⟨49, _⟩ => ⟨S4096x50, .i32⟩
  | .hbm, ⟨50, _⟩ => ⟨S4096x50x1, .i32⟩
  | .hbm, ⟨51, _⟩ => ⟨S4096x50x64, .f32⟩
  | .hbm, ⟨52, _⟩ => ⟨S4096x50x128, .f32⟩
  | .hbm, ⟨53, _⟩ => ⟨S4096x50, .i1⟩
  | .hbm, ⟨54, _⟩ => ⟨S4096x50, .f32⟩
  | .hbm, ⟨55, _⟩ => ⟨S4096x50x1, .f32⟩
  | .hbm, ⟨56, _⟩ => ⟨S128x256, .f32⟩
  | .hbm, ⟨57, _⟩ => ⟨S128x256, .bf16⟩
  | .hbm, ⟨58, _⟩ => ⟨S128x256, .f32⟩
  | .hbm, ⟨59, _⟩ => ⟨S128x256, .bf16⟩
  | .hbm, ⟨60, _⟩ => ⟨S128x256, .f32⟩
  | .hbm, ⟨61, _⟩ => ⟨S128x256, .bf16⟩
  | .hbm, ⟨62, _⟩ => ⟨S256x1, .bf16⟩
  | .hbm, ⟨63, _⟩ => ⟨S1x256, .f32⟩
  | .hbm, ⟨64, _⟩ => ⟨S1x1, .f32⟩
  | .hbm, ⟨65, _⟩ => ⟨S4096x128, .f32⟩
  | .hbm, ⟨66, _⟩ => ⟨S4096x1x128, .f32⟩
  | .local _ .vmem, ⟨0, _⟩ => ⟨S64x128, .f32⟩
  | .local _ .vmem, ⟨1, _⟩ => ⟨S64x128, .f32⟩
  | .local _ .vmem, ⟨2, _⟩ => ⟨S64x50x128, .f32⟩
  | .local _ .vmem, ⟨3, _⟩ => ⟨S64x50x128, .f32⟩
  | .local _ .vmem, ⟨4, _⟩ => ⟨S64x50x1, .f32⟩
  | .local _ .vmem, ⟨5, _⟩ => ⟨S64x50x1, .f32⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S256x1, .bf16⟩
  | .local _ .vmem, ⟨10, _⟩ => ⟨S1x256, .f32⟩
  | .local _ .vmem, ⟨11, _⟩ => ⟨S1x1, .f32⟩
  | .local _ .vmem, ⟨12, _⟩ => ⟨S64x128, .f32⟩
  | .local _ .vmem, ⟨13, _⟩ => ⟨S64x128, .f32⟩
  | _, _ => ⟨S4096x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x50x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x50x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x64_S4096x64_S4096x128_d1 : Shape.Concatenates [S4096x64, S4096x64] S4096x128 1
  shapeCasts_S4096x1x50_S4096x50 : S4096x1x50.ShapeCasts S4096x50
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  concatenates_S4096x50x64_S4096x50x64_S4096x50x128_d2 : Shape.Concatenates [S4096x50x64, S4096x50x64] S4096x50x128 2
  slices_S384x256_S128x256_0_0 : S384x256.Slices ![0, 0] S128x256
  bitsLt_bf16_f32 : FTy.bits .bf16 < FTy.bits .f32
  slices_S384x256_S128x256_128_0 : S384x256.Slices ![128, 0] S128x256
  slices_S384x256_S128x256_256_0 : S384x256.Slices ![256, 0] S128x256
  shapeCasts_S256_S1x256 : S256.ShapeCasts S1x256
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x50x128_S64x50x128_0_0_0 : ∀ a, (![0, 0, 0] : Fin 3 → Nat) a + S64x50x128.size a ≤ S64x50x128.size a
  h_S64x50x128 : 0 < S64x50x128.numel
  shapeCasts_S64x50x128_S64x50x128 : S64x50x128.ShapeCasts S64x50x128
  inb_S64x50x1_S64x50x1_0_0_0 : ∀ a, (![0, 0, 0] : Fin 3 → Nat) a + S64x50x1.size a ≤ S64x50x1.size a
  h_S64x50x1 : 0 < S64x50x1.numel
  shapeCasts_S64x50x1_S64x50x1 : S64x50x1.ShapeCasts S64x50x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S64x50x128_S3200x128 : S64x50x128.ShapeCasts S3200x128
  shapeCasts_S3200x256_S64x50x256 : S3200x256.ShapeCasts S64x50x256
  shapeCasts_S64x128_S64x1x128 : S64x128.ShapeCasts S64x1x128
  broadcasts_S64x1x128_S64x50x128 : S64x1x128.Broadcasts S64x50x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S64x256_S64x1x256 : S64x256.ShapeCasts S64x1x256
  broadcasts_S64x1x256_S64x50x256 : S64x1x256.Broadcasts S64x50x256
  shapeCasts_S1x256_S1x1x256 : S1x256.ShapeCasts S1x1x256
  broadcasts_S1x1x256_S64x50x256 : S1x1x256.Broadcasts S64x50x256
  shapeCasts_S64x50x256_S3200x256 : S64x50x256.ShapeCasts S3200x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  shapeCasts_S3200x1_S64x50x1 : S3200x1.ShapeCasts S64x50x1
  broadcasts_S64x50x1_S64x50x128 : S64x50x1.Broadcasts S64x50x128
  reduces_S64x50x128_S64x128 : S64x50x128.Reduces [1] S64x128
  shapeCasts_S4096x128_S4096x1x128 : S4096x128.ShapeCasts S4096x1x128
  gather_S100000x64_S4096x1_S4096x64_1_0_n_n_0_1_164_wf : GatherDims.WF S100000x64 S4096x1 S4096x64 [1] [0] [] [0] [] 1 ![1, 64]
  gather_S100000x64_S4096x50x1_S4096x50x64_2_0_n_n_0_2_164_wf : GatherDims.WF S100000x64 S4096x50x1 S4096x50x64 [2] [0] [] [0] [] 2 ![1, 64]
  dot_S64x128_S128x256_S64x256_1_0_0_1_n_n_wf : DotDims.WF S64x128 S128x256 S64x256 [1] [0] [0] [1] [] []
  dot_S3200x128_S128x256_S3200x256_1_0_0_1_n_n_wf : DotDims.WF S3200x128 S128x256 S3200x256 [1] [0] [0] [1] [] []
  dot_S3200x256_S256x1_S3200x1_1_0_0_1_n_n_wf : DotDims.WF S3200x256 S256x1 S3200x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S4096x128.size a
  hwx0_0 : ∀ i : grid0.Coords, EltTy.bits .f32 = 32 ∨ (Rect.block (s := S4096x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x50x128.size a ≤ S4096x50x128.size a
  hwx0_1 : ∀ i : grid0.Coords, EltTy.bits .f32 = 32 ∨ (Rect.block (s := S4096x50x128) S64x50x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x50x1.size a ≤ S4096x50x1.size a
  hwx0_2 : ∀ i : grid0.Coords, EltTy.bits .f32 = 32 ∨ (Rect.block (s := S4096x50x1) S64x50x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .bf16 = 32 ∨ (Rect.block (s := S256x1) S256x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S4096x128.size a
  hwx0_9 : ∀ i : grid0.Coords, EltTy.bits .f32 = 32 ∨ (Rect.block (s := S4096x128) S64x128.size (cc0_transform_9 i) (hinb0_9 i)).WholeWords (EltTy.packing .f32)

variable [Facts₀]

def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S100000x64_S4096x50x1_S4096x50x64_2_0_n_n_0_2_164 : GatherDims S100000x64 S4096x50x1 S4096x50x64 where
  offsetDims := [2]
  collapsedSliceDims := [0]
  operandBatchingDims := []
  startIndicesBatchingDims := []
  startIndexMap := [0]
  indexVectorDim := 2
  sliceSizes := ![1, 64]
  wf := gather_S100000x64_S4096x50x1_S4096x50x64_2_0_n_n_0_2_164_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S3200x128_S128x256_S3200x256_1_0_0_1_n_n : DotDims S3200x128 S128x256 S3200x256 where
  lhsContracting := [1]
  rhsContracting := [0]
  lhsNonContracting := [0]
  rhsNonContracting := [1]
  lhsBatch := []
  rhsBatch := []
  wf := dot_S3200x128_S128x256_S3200x256_1_0_0_1_n_n_wf
def dot_S3200x256_S256x1_S3200x1_1_0_0_1_n_n : DotDims S3200x256 S256x1 S3200x1 where
  lhsContracting := [1]
  rhsContracting := [0]
  lhsNonContracting := [0]
  rhsNonContracting := [1]
  lhsBatch := []
  rhsBatch := []
  wf := dot_S3200x256_S256x1_S3200x1_1_0_0_1_n_n_wf

abbrev win0_0 : Pipeline.Window sig grid0 :=
  Pipeline.Window.ofSpec (Memref.whole main_v16) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S64x50x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S64x50x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46) S64x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1 : Shape := ⟨2, ![4096, 1]⟩
abbrev S4096x1x50 : Shape := ⟨3, ![4096, 1, 50]⟩
abbrev S100000x64 : Shape := ⟨2, ![100000, 64]⟩
abbrev S384x256 : Shape := ⟨2, ![384, 256]⟩
abbrev S256 : Shape := ⟨1, ![256]⟩
abbrev S256x1 : Shape := ⟨2, ![256, 1]⟩
abbrev S1 : Shape := ⟨1, ![1]⟩
abbrev S_ : Shape := ⟨0, ![]⟩
abbrev S4096x1x1 : Shape := ⟨3, ![4096, 1, 1]⟩
abbrev S4096x1x64 : Shape := ⟨3, ![4096, 1, 64]⟩
abbrev S4096x1x128 : Shape := ⟨3, ![4096, 1, 128]⟩
abbrev S4096x1x50x1 : Shape := ⟨4, ![4096, 1, 50, 1]⟩
abbrev S4096x1x50x64 : Shape := ⟨4, ![4096, 1, 50, 64]⟩
abbrev S4096x1x50x128 : Shape := ⟨4, ![4096, 1, 50, 128]⟩
abbrev S4096x1x1x128 : Shape := ⟨4, ![4096, 1, 1, 128]⟩
abbrev S4096x1x50x384 : Shape := ⟨4, ![4096, 1, 50, 384]⟩
abbrev S4096x1x50x256 : Shape := ⟨4, ![4096, 1, 50, 256]⟩
abbrev S1x1x1x256 : Shape := ⟨4, ![1, 1, 1, 256]⟩
abbrev S1x1x1x1 : Shape := ⟨4, ![1, 1, 1, 1]⟩
abbrev S4096x1x1x50 : Shape := ⟨4, ![4096, 1, 1, 50]⟩

abbrev nBuf : Space → Nat
  | .hbm => 70
  | .vmem => 0
  | .smem => 0
  | _ => 0

abbrev bufTy : (tb : Table) → Fin (tcTables nBuf tb) → BufTy
  | .hbm, ⟨0, _⟩ => ⟨S4096x1, .i32⟩
  | .hbm, ⟨1, _⟩ => ⟨S4096x1, .i32⟩
  | .hbm, ⟨2, _⟩ => ⟨S4096x1x50, .i32⟩
  | .hbm, ⟨3, _⟩ => ⟨S4096x1x50, .i32⟩
  | .hbm, ⟨4, _⟩ => ⟨S4096x1x50, .i1⟩
  | .hbm, ⟨5, _⟩ => ⟨S100000x64, .f32⟩
  | .hbm, ⟨6, _⟩ => ⟨S100000x64, .f32⟩
  | .hbm, ⟨7, _⟩ => ⟨S384x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S_, .i32⟩
  | .hbm, ⟨15, _⟩ => ⟨S4096x1, .i32⟩
  | .hbm, ⟨16, _⟩ => ⟨S4096x1, .i32⟩
  | .hbm, ⟨17, _⟩ => ⟨S4096x1, .i32⟩
  | .hbm, ⟨18, _⟩ => ⟨S4096x1x1, .i32⟩
  | .hbm, ⟨19, _⟩ => ⟨S4096x1x64, .f32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S4096x1, .i32⟩
  | .hbm, ⟨27, _⟩ => ⟨S4096x1x1, .i32⟩
  | .hbm, ⟨28, _⟩ => ⟨S4096x1x64, .f32⟩
  | .hbm, ⟨29, _⟩ => ⟨S4096x1x128, .f32⟩
  | .hbm, ⟨30, _⟩ => ⟨S_, .i32⟩
  | .hbm, ⟨31, _⟩ => ⟨S4096x1x50, .i32⟩
  | .hbm, ⟨32, _⟩ => ⟨S4096x1x50, .i1⟩
  | .hbm, ⟨33, _⟩ => ⟨S_, .i32⟩
  | .hbm, ⟨34, _⟩ => ⟨S4096x1x50, .i32⟩
  | .hbm, ⟨35, _⟩ => ⟨S4096x1x50, .i32⟩
  | .hbm, ⟨36, _⟩ => ⟨S4096x1x50, .i32⟩
  | .hbm, ⟨37, _⟩ => ⟨S4096x1x50x1, .i32⟩
  | .hbm, ⟨38, _⟩ => ⟨S4096x1x50x64, .f32⟩
  | .hbm, ⟨39, _⟩ => ⟨S_, .i32⟩
  | .hbm, ⟨40, _⟩ => ⟨S4096x1x50, .i32⟩
  | .hbm, ⟨41, _⟩ => ⟨S4096x1x50, .i1⟩
  | .hbm, ⟨42, _⟩ => ⟨S_, .i32⟩
  | .hbm, ⟨43, _⟩ => ⟨S4096x1x50, .i32⟩
  | .hbm, ⟨44, _⟩ => ⟨S4096x1x50, .i32⟩
  | .hbm, ⟨45, _⟩ => ⟨S4096x1x50, .i32⟩
  | .hbm, ⟨46, _⟩ => ⟨S4096x1x50x1, .i32⟩
  | .hbm, ⟨47, _⟩ => ⟨S4096x1x50x64, .f32⟩
  | .hbm, ⟨48, _⟩ => ⟨S4096x1x50x128, .f32⟩
  | .hbm, ⟨49, _⟩ => ⟨S4096x1x1x128, .f32⟩
  | .hbm, ⟨50, _⟩ => ⟨S4096x1x50x128, .f32⟩
  | .hbm, ⟨51, _⟩ => ⟨S4096x1x50x128, .f32⟩
  | .hbm, ⟨52, _⟩ => ⟨S4096x1x50x384, .f32⟩
  | .hbm, ⟨53, _⟩ => ⟨S4096x1x50x256, .f32⟩
  | .hbm, ⟨54, _⟩ => ⟨S1x1x1x256, .f32⟩
  | .hbm, ⟨55, _⟩ => ⟨S4096x1x50x256, .f32⟩
  | .hbm, ⟨56, _⟩ => ⟨S4096x1x50x256, .f32⟩
  | .hbm, ⟨57, _⟩ => ⟨S_, .f32⟩
  | .hbm, ⟨58, _⟩ => ⟨S4096x1x50x256, .f32⟩
  | .hbm, ⟨59, _⟩ => ⟨S4096x1x50x256, .f32⟩
  | .hbm, ⟨60, _⟩ => ⟨S4096x1x50x1, .f32⟩
  | .hbm, ⟨61, _⟩ => ⟨S1x1x1x1, .f32⟩
  | .hbm, ⟨62, _⟩ => ⟨S4096x1x50x1, .f32⟩
  | .hbm, ⟨63, _⟩ => ⟨S4096x1x50x1, .f32⟩
  | .hbm, ⟨64, _⟩ => ⟨S4096x1x1x50, .f32⟩
  | .hbm, ⟨65, _⟩ => ⟨S4096x1x50, .f32⟩
  | .hbm, ⟨66, _⟩ => ⟨S4096x1x1x50, .f32⟩
  | .hbm, ⟨67, _⟩ => ⟨S4096x1x1x50, .f32⟩
  | .hbm, ⟨68, _⟩ => ⟨S4096x1x1x128, .f32⟩
  | .hbm, ⟨69, _⟩ => ⟨S4096x1x128, .f32⟩
  | _, _ => ⟨S4096x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S_S4096x1 : S_.BroadcastsInDim S4096x1 (![] : Fin 0 → Fin S4096x1.rank)
  bcast_S4096x1_S4096x1x1_0_1 : S4096x1.BroadcastsInDim S4096x1x1 (![0, 1] : Fin 2 → Fin S4096x1x1.rank)
  concatenates_S4096x1x64_S4096x1x64_S4096x1x128_d2 : Shape.Concatenates [S4096x1x64, S4096x1x64] S4096x1x128 2
  bcast_S_S4096x1x50 : S_.BroadcastsInDim S4096x1x50 (![] : Fin 0 → Fin S4096x1x50.rank)
  bcast_S4096x1x50_S4096x1x50x1_0_1_2 : S4096x1x50.BroadcastsInDim S4096x1x50x1 (![0, 1, 2] : Fin 3 → Fin S4096x1x50x1.rank)
  concatenates_S4096x1x50x64_S4096x1x50x64_S4096x1x50x128_d3 : Shape.Concatenates [S4096x1x50x64, S4096x1x50x64] S4096x1x50x128 3
  bcast_S4096x1x128_S4096x1x1x128_0_1_3 : S4096x1x128.BroadcastsInDim S4096x1x1x128 (![0, 1, 3] : Fin 3 → Fin S4096x1x1x128.rank)
  bcast_S4096x1x1x128_S4096x1x50x128_0_1_2_3 : S4096x1x1x128.BroadcastsInDim S4096x1x50x128 (![0, 1, 2, 3] : Fin 4 → Fin S4096x1x50x128.rank)
  concatenates_S4096x1x50x128_S4096x1x50x128_S4096x1x50x128_S4096x1x50x384_d3 : Shape.Concatenates [S4096x1x50x128, S4096x1x50x128, S4096x1x50x128] S4096x1x50x384 3
  bcast_S256_S1x1x1x256_3 : S256.BroadcastsInDim S1x1x1x256 (![3] : Fin 1 → Fin S1x1x1x256.rank)
  bcast_S1x1x1x256_S4096x1x50x256_0_1_2_3 : S1x1x1x256.BroadcastsInDim S4096x1x50x256 (![0, 1, 2, 3] : Fin 4 → Fin S4096x1x50x256.rank)
  bcast_S_S4096x1x50x256 : S_.BroadcastsInDim S4096x1x50x256 (![] : Fin 0 → Fin S4096x1x50x256.rank)
  bcast_S1_S1x1x1x1_3 : S1.BroadcastsInDim S1x1x1x1 (![3] : Fin 1 → Fin S1x1x1x1.rank)
  bcast_S1x1x1x1_S4096x1x50x1_0_1_2_3 : S1x1x1x1.BroadcastsInDim S4096x1x50x1 (![0, 1, 2, 3] : Fin 4 → Fin S4096x1x50x1.rank)
  transposes_S4096x1x50x1_S4096x1x1x50_0_1_3_2 : S4096x1x50x1.Transposes [0, 1, 3, 2] S4096x1x1x50
  bcast_S4096x1x50_S4096x1x1x50_0_2_3 : S4096x1x50.BroadcastsInDim S4096x1x1x50 (![0, 2, 3] : Fin 3 → Fin S4096x1x1x50.rank)
  shapeCasts_S4096x1x1x128_S4096x1x128 : S4096x1x1x128.ShapeCasts S4096x1x128
  gather_S100000x64_S4096x1x1_S4096x1x64_2_0_n_n_0_2_164_wf : GatherDims.WF S100000x64 S4096x1x1 S4096x1x64 [2] [0] [] [0] [] 2 ![1, 64]
  gather_S100000x64_S4096x1x50x1_S4096x1x50x64_3_0_n_n_0_3_164_wf : GatherDims.WF S100000x64 S4096x1x50x1 S4096x1x50x64 [3] [0] [] [0] [] 3 ![1, 64]
  dot_S4096x1x50x384_S384x256_S4096x1x50x256_3_0_012_1_n_n_wf : DotDims.WF S4096x1x50x384 S384x256 S4096x1x50x256 [3] [0] [0, 1, 2] [1] [] []
  dot_S4096x1x50x256_S256x1_S4096x1x50x1_3_0_012_1_n_n_wf : DotDims.WF S4096x1x50x256 S256x1 S4096x1x50x1 [3] [0] [0, 1, 2] [1] [] []
  dot_S4096x1x1x50_S4096x1x50x128_S4096x1x1x128_3_2_2_3_01_01_wf : DotDims.WF S4096x1x1x50 S4096x1x50x128 S4096x1x1x128 [3] [2] [2] [3] [0, 1] [0, 1]

variable [Facts₀]

def gather_S100000x64_S4096x1x1_S4096x1x64_2_0_n_n_0_2_164 : GatherDims S100000x64 S4096x1x1 S4096x1x64 where
  offsetDims := [2]
  collapsedSliceDims := [0]
  operandBatchingDims := []
  startIndicesBatchingDims := []
  startIndexMap := [0]
  indexVectorDim := 2
  sliceSizes := ![1, 64]
  wf := gather_S100000x64_S4096x1x1_S4096x1x64_2_0_n_n_0_2_164_wf
def gather_S100000x64_S4096x1x50x1_S4096x1x50x64_3_0_n_n_0_3_164 : GatherDims S100000x64 S4096x1x50x1 S4096x1x50x64 where
  offsetDims := [3]
  collapsedSliceDims := [0]
  operandBatchingDims := []
  startIndicesBatchingDims := []
  startIndexMap := [0]
  indexVectorDim := 3
  sliceSizes := ![1, 64]
  wf := gather_S100000x64_S4096x1x50x1_S4096x1x50x64_3_0_n_n_0_3_164_wf
def dot_S4096x1x50x384_S384x256_S4096x1x50x256_3_0_012_1_n_n : DotDims S4096x1x50x384 S384x256 S4096x1x50x256 where
  lhsContracting := [3]
  rhsContracting := [0]
  lhsNonContracting := [0, 1, 2]
  rhsNonContracting := [1]
  lhsBatch := []
  rhsBatch := []
  wf := dot_S4096x1x50x384_S384x256_S4096x1x50x256_3_0_012_1_n_n_wf
def dot_S4096x1x50x256_S256x1_S4096x1x50x1_3_0_012_1_n_n : DotDims S4096x1x50x256 S256x1 S4096x1x50x1 where
  lhsContracting := [3]
  rhsContracting := [0]
  lhsNonContracting := [0, 1, 2]
  rhsNonContracting := [1]
  lhsBatch := []
  rhsBatch := []
  wf := dot_S4096x1x50x256_S256x1_S4096x1x50x1_3_0_012_1_n_n_wf
def dot_S4096x1x1x50_S4096x1x50x128_S4096x1x1x128_3_2_2_3_01_01 : DotDims S4096x1x1x50 S4096x1x50x128 S4096x1x1x128 where
  lhsContracting := [3]
  rhsContracting := [2]
  lhsNonContracting := [2]
  rhsNonContracting := [3]
  lhsBatch := [0, 1]
  rhsBatch := [0, 1]
  wf := dot_S4096x1x1x50_S4096x1x50x128_S4096x1x1x128_3_2_2_3_01_01_wf

class Facts : Prop extends Facts₀ where

variable [Facts]
-- ==== Proof.Spec.lean ====
/-
  The attention block in closed form, row by row, on the extended reals.

  For one batch row: a query vector q (128 entries), a history of 50 key vectors k_l (128 entries each) and a 0/1
  weight m_l per history position.  Each history position is scored by a two-layer perceptron applied to the
  384 numbers (q, k_l, q ∘ k_l) laid side by side: a hidden layer of 256 rectified units with weights W (384 x 256)
  and bias bh, then one linear output unit with weights wo and bias bo.  The row's result is the sum over the history
  of (score_l * m_l) * k_l.

  Two spellings of that number are defined here and proved equal:
    * rowOutR contracts the 384 inputs of the hidden layer in one sum;
    * rowOutK contracts the three groups of 128 inputs separately (the k-group, then the (q ∘ k)-group, then the
      q-group), against the three row blocks W[0:128], W[128:256], W[256:384] of W, and adds the three partial sums.
  They agree because a sum over 384 = 128 + 128 + 128 indices is the sum of the three sums over 128, and addition of
  extended reals is commutative and associative (no finiteness is needed).

  Also here: how a row of the two embedding tables is named by a 32-bit index (a negative index gets the table
  length 100000 added, then the index is read signed and clamped into [0, 99999]), and the query / key / weight
  arrays as functions of the program's eleven arguments.
-/
import Idealize.ShloMosaic.Lib.ValueIdx
import Idealize.ShloMosaic.PureOps.Ideal
import Mathlib.Algebra.BigOperators.Fin

noncomputable section

open scoped BigOperators

namespace Cert.Attn

open Idealize.ShloMosaic Idealize.ShloMosaic.ValueIdx

/-! ## Rows of the embedding tables -/

/-- An index as the gather sees it: a negative index has the table length 100000 added. -/
def wrapIx (x : BitVec 32) : BitVec 32 :=
  Scalar.select (IntOp.cmpi .slt x 0#32) (IntOp.addi x 100000#32) x

/-- The table row an index names: the wrapped index read signed, clamped into [0, 99999]. -/
def rowIx (x : BitVec 32) : Fin 100000 := ⟨min (wrapIx x).toInt.toNat (100000 - 1), by omega⟩

/-- An embedding table: 100000 rows of 64 numbers. -/
abbrev Tab : Type := (⟨2, ![100000, 64]⟩ : Shape).Idx → EReal

/-- Two table rows side by side: entry c < 64 is the first table's row r₁ at column c, entry c ≥ 64 the second
    table's row r₂ at column c - 64. -/
def pair (ei ec : Tab) (r₁ r₂ : Fin 100000) (c : Fin 128) : EReal :=
  if h : c.val < 64 then ei (ix2 r₁ ⟨c.val, h⟩) else ec (ix2 r₂ ⟨c.val - 64, by omega⟩)

/-- The query vector of batch row b: the item row and the category row named by the two query indices. -/
def qv (x0 x1 : IVec ⟨2, ![4096, 1]⟩ 32) (x5 x6 : Tab) (b : Fin 4096) (c : Fin 128) : EReal :=
  pair x5 x6 (rowIx (x0 (ix2 b 0))) (rowIx (x1 (ix2 b 0))) c

/-- The key vector of batch row b at history position l. -/
def kv (x2 x3 : IVec ⟨3, ![4096, 1, 50]⟩ 32) (x5 x6 : Tab) (b : Fin 4096) (l : Fin 50) (c : Fin 128) : EReal :=
  pair x5 x6 (rowIx (x2 (ix3 b 0 l))) (rowIx (x3 (ix3 b 0 l))) c

/-- The 0/1 weight of history position l of batch row b: the mask bit as a number. -/
def mv (x4 : IVec ⟨3, ![4096, 1, 50]⟩ 1) (b : Fin 4096) (l : Fin 50) : EReal :=
  FloatOps.uitofp (F := Ideal) .f32 (x4 (ix3 b 0 l))

/-! ## One batch row -/

section Row

variable (q : Fin 128 → EReal) (k : Fin 50 → Fin 128 → EReal) (m : Fin 50 → EReal)
  (bh wo : Fin 256 → EReal) (bo : EReal)

/-- The perceptron's 384 inputs at history position l: q, then k_l, then q ∘ k_l. -/
def catv (l : Fin 50) (j : Fin 384) : EReal :=
  if h : j.val < 128 then q ⟨j.val, h⟩
  else if h' : j.val < 256 then k l ⟨j.val - 128, by omega⟩
  else q ⟨j.val - 256, by omega⟩ * k l ⟨j.val - 256, by omega⟩

/-- The row's result at column e, the hidden layer contracted in one sum over its 384 inputs. -/
def rowOutR (W : Fin 384 → Fin 256 → EReal) (e : Fin 128) : EReal :=
  ∑ l : Fin 50,
    (((∑ u : Fin 256, max ((∑ j : Fin 384, catv q k l j * W j u) + bh u) 0 * wo u) + bo) * m l) * k l e

/-- The row's result at column e, the hidden layer contracted group by group: the k-group against W2, the
    (q ∘ k)-group against W3, the q-group against W1, added in that order, then the bias. -/
def rowOutK (W1 W2 W3 : Fin 128 → Fin 256 → EReal) (e : Fin 128) : EReal :=
  ∑ l : Fin 50,
    (((∑ u : Fin 256,
        max (((∑ c : Fin 128, k l c * W2 c u) + (∑ c : Fin 128, (q c * k l c) * W3 c u)
              + (∑ c : Fin 128, q c * W1 c u)) + bh u) 0 * wo u) + bo) * m l) * k l e

/-- A sum over 384 indices is the sum of the sums over its three thirds. -/
theorem sum_384_split {M : Type} [AddCommMonoid M] (f : Fin 384 → M) :
    ∑ j, f j = (∑ c : Fin 128, f ⟨c.val, by omega⟩) + (∑ c : Fin 128, f ⟨128 + c.val, by omega⟩)
      + (∑ c : Fin 128, f ⟨256 + c.val, by omega⟩) := by
  have h1 : ∑ j : Fin 384, f j = ∑ j : Fin (256 + 128), f ⟨j.val, by omega⟩ := rfl
  rw [h1, Fin.sum_univ_add]
  have h2 : ∑ j : Fin 256, f ⟨(Fin.castAdd 128 j).val, by have := j.isLt; simp; omega⟩
      = ∑ j : Fin (128 + 128), f ⟨j.val, by omega⟩ := rfl
  rw [h2, Fin.sum_univ_add]
  rfl

/-- The two spellings agree. -/
theorem rowOutK_eq_rowOutR (W : Fin 384 → Fin 256 → EReal) (e : Fin 128) :
    rowOutK q k m bh wo bo (fun c u => W ⟨c.val, by omega⟩ u) (fun c u => W ⟨128 + c.val, by omega⟩ u)
      (fun c u => W ⟨256 + c.val, by omega⟩ u) e = rowOutR q k m bh wo bo W e := by
  unfold rowOutK rowOutR
  refine Finset.sum_congr rfl fun l _ => ?_
  congr 3
  refine Finset.sum_congr rfl fun u _ => ?_
  congr 3
  rw [sum_384_split]
  have e1 : ∀ c : Fin 128, catv q k l ⟨c.val, by omega⟩ = q c := fun c => by
    unfold catv; rw [dif_pos c.isLt]
  have e2 : ∀ c : Fin 128, catv q k l ⟨128 + c.val, by omega⟩ = k l c := fun c => by
    unfold catv
    rw [dif_neg (by show ¬ 128 + c.val < 128; omega), dif_pos (by show 128 + c.val < 256; omega)]
    congr 1; exact Fin.ext (by show 128 + c.val - 128 = c.val; omega)
  have e3 : ∀ c : Fin 128, catv q k l ⟨256 + c.val, by omega⟩ = q c * k l c := fun c => by
    unfold catv
    rw [dif_neg (by show ¬ 256 + c.val < 128; omega), dif_neg (by show ¬ 256 + c.val < 256; omega)]
    congr 2 <;> exact Fin.ext (by show 256 + c.val - 256 = c.val; omega)
  simp only [e1, e2, e3]
  rw [add_comm (_ + _) (∑ c : Fin 128, q c * W ⟨c.val, by omega⟩ u), add_assoc]

end Row

end Cert.Attn

end
-- ==== Proof.Closed.lean ====
/-
  The whole result as one function of the program's eleven arguments: entry (b, e) is the closed-form row result (the
  one-sum spelling) of batch row b's query vector, key vectors and weights, with the hidden layer's weights, the two
  biases and the output weights read off their arrays.
-/
import proofs.«144231_j34565896798471_1_alg».proof.Proof.Spec

noncomputable section

namespace Cert.Attn

open Idealize.ShloMosaic Idealize.ShloMosaic.ValueIdx

/-- The result at batch row b, column e. -/
def attn (x0 x1 : IVec ⟨2, ![4096, 1]⟩ 32) (x2 x3 : IVec ⟨3, ![4096, 1, 50]⟩ 32) (x4 : IVec ⟨3, ![4096, 1, 50]⟩ 1)
    (x5 x6 : Tab) (x7 : (⟨2, ![384, 256]⟩ : Shape).Idx → EReal) (x8 : (⟨1, ![256]⟩ : Shape).Idx → EReal)
    (x9 : (⟨2, ![256, 1]⟩ : Shape).Idx → EReal) (x10 : (⟨1, ![1]⟩ : Shape).Idx → EReal)
    (b : Fin 4096) (e : Fin 128) : EReal :=
  rowOutR (qv x0 x1 x5 x6 b) (kv x2 x3 x5 x6 b) (mv x4 b) (fun u => x8 (ix1 u)) (fun u => x9 (ix2 u 0)) (x10 (ix1 0))
    (fun j u => x7 (ix2 j u)) e

end Cert.Attn

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibMergeRows.lean ====
/-
  Two leading axes merged into one, and one leading axis split into two, read at an entry (a general lemma: nothing
  here depends on a program).

  An array [A, B, C] and an array [A·B, C] hold the same entries in the same row-major order: entry (a, b, c) of the
  first sits where entry (a·B + b, c) of the second does. So a shape cast from one to the other, in either
  direction, moves no entry: it only renames (a, b) as the row a·B + b. Any sizes A, B, C; the merged extent is a
  parameter N with the row r given together with the equation r = a·B + b, so that a literal extent (16384 for
  16·1024) is met without arithmetic on types.
-/
import Idealize.ShloMosaic.Lib.ValueIdx
import Idealize.ShloMosaic.Lib.Pipeline.Value

noncomputable section

namespace Cert.Lib.MergeRows

open Idealize.ShloMosaic Idealize.ShloMosaic.ValueIdx

/-- [A, B, C] viewed as [N, C]: the entry at row a·B + b, column c, is the entry (a, b, c). -/
theorem merge_apply {α : Type} {A B C N : Nat} (x : (⟨3, ![A, B, C]⟩ : Shape).Idx → α)
    (h : (⟨3, ![A, B, C]⟩ : Shape).ShapeCasts ⟨2, ![N, C]⟩) (a : Fin A) (b : Fin B) (c : Fin C) (r : Fin N)
    (hr : r.val = a.val * B + b.val) :
    shapeCast ⟨2, ![N, C]⟩ x h (ix2 r c) = x (ix3 a b c) := by
  refine shapeCast_apply x h (ix2 r c) (ix3 a b c) ?_
  rw [Shape.rowMajor_val_three, Shape.rowMajor_val_two]
  show (a.val * B + b.val) * C + c.val = r.val * C + c.val
  rw [hr]

/-- [N, C] viewed as [A, B, C]: the entry (a, b, c) is the entry at row a·B + b, column c. -/
theorem split_apply {α : Type} {A B C N : Nat} (x : (⟨2, ![N, C]⟩ : Shape).Idx → α)
    (h : (⟨2, ![N, C]⟩ : Shape).ShapeCasts ⟨3, ![A, B, C]⟩) (a : Fin A) (b : Fin B) (c : Fin C) (r : Fin N)
    (hr : r.val = a.val * B + b.val) :
    shapeCast ⟨3, ![A, B, C]⟩ x h (ix3 a b c) = x (ix2 r c) := by
  refine shapeCast_apply x h (ix3 a b c) (ix2 r c) ?_
  rw [Shape.rowMajor_val_three, Shape.rowMajor_val_two]
  show r.val * C + c.val = (a.val * B + b.val) * C + c.val
  rw [hr]

end Cert.Lib.MergeRows

end
-- ==== Proof.LibUnitAxes.lean ====
/-
  Unit axes in the middle and at the end of a rank-3 shape, read at an index given by coordinates.
  A shape cast that drops or inserts a unit axis keeps the row-major position, so it reads the operand at the
  index with the same non-unit coordinates; a broadcast along a unit axis reads the operand at coordinate 0 there.
  Stated for any extents a, b, c.
-/
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## The compositions a kernel prints: a coordinate row taken out, a column and a row spread over a box -/

/-- Row `o` of the middle axis of an `[a, k, n]` array, sliced out and cast to `[a, n]`, reads the array at
    `(i, o, j)`. -/
theorem shapeCast_slice_axis1_apply {a k n : ℕ} (o : ℕ) (X : (⟨3, ![a, k, n]⟩ : Shape).Idx → α)
    (hs : (⟨3, ![a, k, n]⟩ : Shape).Slices ![0, o, 0] ⟨3, ![a, 1, n]⟩)
    (hc : (⟨3, ![a, 1, n]⟩ : Shape).ShapeCasts ⟨2, ![a, n]⟩) (i : Fin a) (j : Fin n) :
    shapeCast ⟨2, ![a, n]⟩ (extractStridedSlice ⟨3, ![a, 1, n]⟩ ![0, o, 0] X hs) hc (ix2 i j)
      = X (ix3 i ⟨o, Nat.lt_of_lt_of_le (Nat.lt_succ_self o) (hs.2 1)⟩ j) :=
  (shapeCast_a1b_ab_apply _ hc i j).trans (slice3_axis1_apply o X hs i 0 j _ rfl)

/-- An `[a, b]` array cast to a column `[a, b, 1]` and broadcast to `[a, b, c]` reads, at `(i, j, k)`, the array
    at `(i, j)`. -/
theorem broadcastTo_shapeCast_ab1_apply {a b c : ℕ} (v : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ v hc) hb (ix3 i j k) = v (ix2 i j) :=
  (broadcastTo_ab1_abc_apply _ hb i j k).trans (shapeCast_ab_ab1_apply v hc i j 0)

/-- An `[a, c]` array cast to a row `[a, 1, c]` and broadcast to `[a, b, c]` reads, at `(i, j, k)`, the array at
    `(i, k)`. -/
theorem broadcastTo_shapeCast_a1c_apply {a b c : ℕ} (v : (⟨2, ![a, c]⟩ : Shape).Idx → α)
    (hc : (⟨2, ![a, c]⟩ : Shape).ShapeCasts ⟨3, ![a, 1, c]⟩)
    (hb : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ v hc) hb (ix3 i j k) = v (ix2 i k) :=
  (broadcastTo_a1c_abc_apply _ hb i j k).trans (shapeCast_ab_a1b_apply v hc i 0 k)

end Idealize.ShloMosaic.ValueIdx
-- ==== Proof.Payload.lean ====
/-
  One block of the kernel's output, entry by entry: the 64 x 128 block the body stores at a grid point, read at row p
  and column e, is the closed-form row result (the group-by-group spelling) of row p of the query block, the key
  block and the weight block.

  The road.  The body loads its nine whole input blocks, computes, and stores one whole block; so the stored block is
  the body's arithmetic applied to the input blocks.  That arithmetic is read at an entry stage by stage:
    * the hidden layer, a [3200, 256] array whose row p*50 + l is history position l of batch row p: three
      rows-by-columns products (each a sum over 128 inputs), added, plus the bias, rectified;
    * the score, a [3200, 1] column: the product of the hidden layer with the output weights (a sum over 256 units)
      plus the output bias;
    * the block: the score times the 0/1 weight times the key vector, summed over the 50 history positions.
  Shape casts between [64, 50, ·] and [3200, ·] move no entry (row p*50 + l is (p, l)); broadcasts along a unit axis
  read coordinate 0 there; the narrowing casts between number formats are the identity on the extended reals.
-/
import proofs.«144231_j34565896798471_1_alg».proof.Proof.Gen.KernelIdeal.Frame
import proofs.«144231_j34565896798471_1_alg».proof.Proof.Spec
import proofs.«144231_j34565896798471_1_alg».proof.Proof.LibMatmul
import proofs.«144231_j34565896798471_1_alg».proof.Proof.LibMergeRows
import proofs.«144231_j34565896798471_1_alg».proof.Proof.LibUnitAxes
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Attn
open Cert.Lib.MergeRows Cert.Lib.Matmul

/-! ## The stored block is the body's arithmetic on the input blocks -/

/-- The zero offsets of a whole-buffer rectangle of rank 2. -/
theorem zero2 : (![0, 0] : Fin 2 → Nat) = fun _ => 0 := funext fun a => by fin_cases a <;> rfl
/-- The zero offsets of a whole-buffer rectangle of rank 3. -/
theorem zero3 : (![0, 0, 0] : Fin 3 → Nat) = fun _ => 0 := funext fun a => by fin_cases a <;> rfl

/-- Every load reads its whole buffer and the one store covers the output buffer, so the stored block is the last
    payload of the body over the input blocks themselves. -/
theorem out_eq (X0 : Vec Ideal S64x128 .f32) (X1 : Vec Ideal S64x50x128 .f32) (X2 : Vec Ideal S64x50x1 .f32)
    (X3 X4 X5 : Vec Ideal S128x256 .bf16) (X6 : Vec Ideal S256x1 .bf16) (X7 : Vec Ideal S1x256 .f32)
    (X8 : Vec Ideal S1x1 .f32) :
    out0_9 (F := Ideal) X0 X1 X2 X3 X4 X5 X6 X7 X8
      = k0_pay1 (F := Ideal) (k0_pay2 X1) (k0_pay3 X2) (k0_pay4 X0 X1 X3 X4 X5 X7) X6 X8 := by
  unfold out0_9
  rw [View.canon_unit_zero zero2]
  rw [View.ld_unit_zero (S := S64x128) zero2, View.ld_unit_zero (S := S64x50x128) zero3,
    View.ld_unit_zero (S := S64x50x1) zero3, View.ld_unit_zero (S := S128x256) zero2 _ X3,
    View.ld_unit_zero (S := S128x256) zero2 _ X4, View.ld_unit_zero (S := S128x256) zero2 _ X5,
    View.ld_unit_zero (S := S1x256) zero2, View.ld_unit_zero (S := S256x1) zero2, View.ld_unit_zero (S := S1x1) zero2]

/-! ## Rows of the merged arrays -/

/-- History position l of batch row p is row p*50 + l of the [3200, ·] arrays. -/
def row (p : Fin 64) (l : Fin 50) : Fin 3200 :=
  ⟨p.val * 50 + l.val, by have := p.isLt; have := l.isLt; omega⟩

/-! ## The hidden layer -/

/-- The hidden layer at row p*50 + l, unit u: the three partial sums over the 128 inputs of each group (keys against
    the second weight block, query-times-key against the third, query against the first), added in that order, plus
    the unit's bias, rectified. -/
theorem hidden_apply (X0 : Vec Ideal S64x128 .f32) (X1 : Vec Ideal S64x50x128 .f32)
    (X3 X4 X5 : Vec Ideal S128x256 .bf16) (X7 : Vec Ideal S1x256 .f32) (p : Fin 64) (l : Fin 50) (u : Fin 256) :
    k0_pay4 (F := Ideal) X0 X1 X3 X4 X5 X7 (ix2 (row p l) u)
      = max (((∑ c : Fin 128, (X1 (ix3 p l c) : EReal) * (X4 (ix2 c u) : EReal))
              + (∑ c : Fin 128, ((X0 (ix2 p c) : EReal) * (X1 (ix3 p l c) : EReal)) * (X5 (ix2 c u) : EReal))
              + (∑ c : Fin 128, (X0 (ix2 p c) : EReal) * (X3 (ix2 c u) : EReal))) + (X7 (ix2 0 u) : EReal)) 0 := by
  unfold k0_pay4 k0_pay2
  dsimp only
  -- the merged [3200, 256] array at row p*50 + l is the [64, 50, 256] array at (p, l)
  refine (merge_apply _ _ p l u (row p l) rfl).trans ?_
  rw [truncf_apply, maximumf_apply, addf_apply, addf_apply, addf_apply, broadcast_apply]
  refine congrArg₂ max (congrArg₂ (· + ·) (congrArg₂ (· + ·) (congrArg₂ (· + ·) ?_ ?_) ?_) ?_) Ideal.ofBits_zero_f32
  · -- the key group
    refine (split_apply _ _ p l u (row p l) rfl).trans ?_
    refine (matmul_zero_apply (A := 3200) (K := 128) (C := 256) none _ _ (row p l) u).trans ?_
    refine Finset.sum_congr rfl fun c _ => ?_
    refine congrArg₂ (· * ·) ?_ ?_
    · refine (merge_apply _ _ p l c (row p l) rfl).trans ?_
      rw [truncf_apply, shapeCast_self]
    · rw [shapeCast_self]
  · -- the query-times-key group
    refine (split_apply _ _ p l u (row p l) rfl).trans ?_
    refine (matmul_zero_apply (A := 3200) (K := 128) (C := 256) none _ _ (row p l) u).trans ?_
    refine Finset.sum_congr rfl fun c _ => ?_
    refine congrArg₂ (· * ·) ?_ ?_
    · refine (merge_apply _ _ p l c (row p l) rfl).trans ?_
      rw [truncf_apply, mulf_apply]
      refine congrArg₂ (· * ·) ?_ ?_
      · refine (broadcastTo_shapeCast_a1c_apply _ _ _ p l c).trans ?_
        rw [shapeCast_self]
      · rw [shapeCast_self]
    · rw [shapeCast_self]
  · -- the query group, one row per batch row spread over the history
    refine (broadcastTo_shapeCast_a1c_apply _ _ _ p l u).trans ?_
    refine (matmul_zero_apply (A := 64) (K := 128) (C := 256) none _ _ p u).trans ?_
    refine Finset.sum_congr rfl fun c _ => ?_
    refine congrArg₂ (· * ·) ?_ ?_
    · rw [truncf_apply, shapeCast_self]
    · rw [shapeCast_self]
  · -- the bias, one row spread over every batch row and history position
    refine (broadcastTo_apply _ _ (ix3 p l u) (ix3 (0 : Fin 1) (0 : Fin 1) u) fun a => ?_).trans ?_
    · match a with
      | ⟨0, _⟩ => rfl
      | ⟨1, _⟩ => rfl
      | ⟨2, _⟩ => rfl
    · refine (shapeCast_ab_a1b_apply _ _ (0 : Fin 1) (0 : Fin 1) u).trans ?_
      rw [shapeCast_self]

/-! ## The score and the block -/

/-- The reduction over the history axis inserts the history position between the block's two coordinates. -/
theorem lift_eq (p : Fin 64) (e : Fin 128) (l : Fin 50) :
    reduces_S64x50x128_S64x128.lift (ix2 p e) l = ix3 p l e := by
  funext a
  fin_cases a <;> rfl

/-- The last payload at (p, e), over any hidden layer h: the sum over the 50 history positions of the score (the
    hidden layer's row against the output weights, a sum over the 256 units, plus the output bias) times the
    position's weight times the key vector's entry e. -/
theorem block_apply (k : FVec Ideal S64x50x128 .f32) (m : FVec Ideal S64x50x1 .f32) (h : FVec Ideal S3200x256 .bf16)
    (wo : Vec Ideal S256x1 .bf16) (bo : Vec Ideal S1x1 .f32) (p : Fin 64) (e : Fin 128) :
    k0_pay1 (F := Ideal) k m h wo bo (ix2 p e)
      = ∑ l : Fin 50,
          (((∑ u : Fin 256, (h (ix2 (row p l) u) : EReal) * (wo (ix2 u 0) : EReal)) + (bo (ix2 0 0) : EReal))
              * (m (ix3 p l 0) : EReal)) * (k (ix3 p l e) : EReal) := by
  unfold k0_pay1
  dsimp only
  refine (Ideal.multiReduction_add_single _ _ reduces_S64x50x128_S64x128 _ _ (ix2 p e)).trans ?_
  refine Finset.sum_congr rfl fun (l : Fin 50) _ => ?_
  rw [lift_eq p e l, mulf_apply]
  refine congrArg₂ (· * ·) ?_ rfl
  -- the weighted score, a column spread over the 128 columns
  refine (broadcastTo_ab1_abc_apply _ _ p l e).trans ?_
  rw [mulf_apply]
  refine congrArg₂ (· * ·) ?_ rfl
  -- the [64, 50, 1] column at (p, l) is the [3200, 1] column at row p*50 + l
  refine (split_apply _ _ p l (0 : Fin 1) (row p l) rfl).trans ?_
  rw [addf_apply]
  refine congrArg₂ (· + ·) ?_ ?_
  · refine (matmul_zero_apply (A := 3200) (K := 256) (C := 1) none _ _ (row p l) (0 : Fin 1)).trans ?_
    refine Finset.sum_congr rfl fun u _ => ?_
    rw [shapeCast_self]
  · -- the output bias, one number spread over the rows
    refine (broadcastTo_apply _ _ (ix2 (row p l) (0 : Fin 1)) (ix2 (0 : Fin 1) (0 : Fin 1)) fun a => ?_).trans ?_
    · match a with
      | ⟨0, _⟩ => rfl
      | ⟨1, _⟩ => rfl
    · rw [shapeCast_self]

/-- The stored block at (p, e). -/
theorem out_apply (X0 : Vec Ideal S64x128 .f32) (X1 : Vec Ideal S64x50x128 .f32) (X2 : Vec Ideal S64x50x1 .f32)
    (X3 X4 X5 : Vec Ideal S128x256 .bf16) (X6 : Vec Ideal S256x1 .bf16) (X7 : Vec Ideal S1x256 .f32)
    (X8 : Vec Ideal S1x1 .f32) (p : Fin 64) (e : Fin 128) :
    out0_9 (F := Ideal) X0 X1 X2 X3 X4 X5 X6 X7 X8 (ix2 p e)
      = rowOutK (fun c => X0 (ix2 p c)) (fun l c => X1 (ix3 p l c)) (fun l => X2 (ix3 p l 0))
          (fun u => X7 (ix2 0 u)) (fun u => X6 (ix2 u 0)) (X8 (ix2 0 0))
          (fun c u => X3 (ix2 c u)) (fun c u => X4 (ix2 c u)) (fun c u => X5 (ix2 c u)) e := by
  have e2 : k0_pay2 (F := Ideal) X1 = X1 := shapeCast_self X1 _
  have e3 : k0_pay3 (F := Ideal) X2 = X2 := shapeCast_self X2 _
  rw [out_eq, block_apply, e2, e3]
  unfold rowOutK
  refine Finset.sum_congr rfl fun l _ => ?_
  refine congrArg₂ (· * ·) (congrArg₂ (· * ·) (congrArg₂ (· + ·) (Finset.sum_congr rfl fun u _ => ?_) rfl) rfl) rfl
  rw [hidden_apply]

end Cert.KernelIdeal.Block

end
-- ==== Proof.LibRowGatherScatter.lean ====
/-
  A row gather followed by a row scatter-add, read at an entry (a general lemma: nothing here depends on a program).

  For an operand of shape [N, W], index arrays of shape [E, 1] and updates of shape [E, W], the row scatter-add
  (update window axis 1, inserted window axis 0, scatter axis 0, index vector axis 1) at entry (n, q) is x[n, q]
  plus the sum, over the edges e whose index dst[e], read signed, is n, of the update (e, q): an edge whose index
  is not a row contributes nothing. The row gather (offset axis 1, collapsed axis 0, start index map [0], index
  vector axis 1, slice sizes [1, W]) at (e, q) is the operand at row min(src[e], N - 1) (the index read signed and
  clamped), column q. Their composition therefore acts on every column by itself (`pass_apply`).
-/
import Idealize.ShloMosaic.Lib.ValueIdx
import Idealize.ShloMosaic.PureOps.Ideal.Laws

noncomputable section

namespace Cert.Lib.RowPass

open Idealize.ShloMosaic Idealize.ShloMosaic.ValueIdx

section Generic

/-- The row scatter's dimension numbers over an operand [N, W], indices [E, 1] and updates [E, W]. -/
abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

/-- On the row axis the window of update (e, q) starts at dst[e], read signed. -/
theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

/-- On the column axis every window starts at 0. -/
theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

/-- The row axis is inserted: the window coordinate there is 0. -/
theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

/-- On the column axis the window coordinate of update (e, q) is q. -/
theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

/-- An axis of a rank-2 shape is 0 or 1. -/
theorem fin2_cases (a : Fin 2) : a = 0 ∨ a = 1 := by
  revert a; decide

/-- Update (e, q) lands at (n, q') exactly when dst[e] = n and q = q' (an update whose dst[e] is not a row lands
    nowhere). -/
theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

/-- The scatter-add at entry (n, q): x[n, q] plus the sum over the edges e with dst[e] = n of the update (e, q). -/
theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

/-- The row gather's dimension numbers over an operand [N, W], start indices [E, 1] and a result [E, W]. -/
abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

/-- On the row axis the slice of result (e, q) starts at src[e], read signed and clamped into [0, N - 1]. -/
theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- On the column axis every slice starts at 0. -/
theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

/-- The row axis is collapsed: the offset coordinate there is 0. -/
theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

/-- On the column axis the offset coordinate of result (e, q) is q. -/
theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

/-- The gather at (e, q): the operand at row min(src[e], N - 1), column q. -/
theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

/-- The gather-then-scatter-add at entry (n, q): x[n, q] plus the sum over the edges e whose target is n of H at the
    clamped source row of e, column q. -/
theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.LibRowGather3.lean ====
/-
  A row gather by a rank-3 array of start indices, read at an entry (a general lemma: nothing here depends on a
  program).

  For an operand [N, D] and an array of start indices [B, L, 1] with the dimension numbers "offset axis 2, collapsed
  operand axis 0, start index map [0], index vector axis 2, slices 1 x D", the result [B, L, D] at (b, l, k) is the
  operand's row r at column k, where r is the start index at (b, l, 0) read as a signed integer, a negative value
  taken to 0, capped at N - 1.  Any sizes N, D, B, L and any index width.
-/
import Idealize.ShloMosaic.Lib.ValueIdx
import Idealize.ShloMosaic.Lib.Pipeline.Value
import Idealize.ShloMosaic.PureOps.Ideal

noncomputable section

namespace Cert.Lib.RowGather3

open Idealize.ShloMosaic Idealize.ShloMosaic.ValueIdx

variable {α : Type}

/-- The dimension numbers of the row gather: operand `[N, D]`, start indices `[B, L, 1]`, result `[B, L, D]`. A
    record with these fields is this one by `rfl`. -/
abbrev rowDims (N D B L : Nat)
    (wf : GatherDims.WF ⟨2, ![N, D]⟩ ⟨3, ![B, L, 1]⟩ ⟨3, ![B, L, D]⟩ [2] [0] [] [0] [] 2 ![1, D]) :
    GatherDims ⟨2, ![N, D]⟩ ⟨3, ![B, L, 1]⟩ ⟨3, ![B, L, D]⟩ where
  offsetDims := [2]
  collapsedSliceDims := [0]
  operandBatchingDims := []
  startIndicesBatchingDims := []
  startIndexMap := [0]
  indexVectorDim := 2
  sliceSizes := ![1, D]
  wf := wf

/-- The operand's row coordinate read by result index `(b, l, k)`: the start index at `(b, l, 0)`, signed, capped
    into `[0, N - 1]`. -/
theorem rowDims_coord0 {N D B L w : Nat}
    (wf : GatherDims.WF ⟨2, ![N, D]⟩ ⟨3, ![B, L, 1]⟩ ⟨3, ![B, L, D]⟩ [2] [0] [] [0] [] 2 ![1, D])
    (idx : IVec ⟨3, ![B, L, 1]⟩ w) (b : Fin B) (l : Fin L) (k : Fin D) :
    (rowDims N D B L wf).start (ix3 b l k) idx 0 + (rowDims N D B L wf).batchCoord (ix3 b l k) 0
      + (rowDims N D B L wf).offCoord (ix3 b l k) 0 = min (idx (ix3 b l 0)).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowDims N D B L wf).startIndexMap from List.mem_singleton.mpr rfl)]
  have hsi : (rowDims N D B L wf).siIdx (ix3 b l k) ⟨List.idxOf (0 : Fin 2) (rowDims N D B L wf).startIndexMap,
      List.idxOf_lt_length_iff.2 (List.mem_singleton.mpr rfl)⟩ = ix3 b l 0 := by
    funext c; refine Fin.ext ?_
    match c with
    | ⟨0, _⟩ => rfl
    | ⟨1, _⟩ => rfl
    | ⟨2, _⟩ => rfl
  rw [hsi]
  rfl

/-- The operand's column coordinate read by result index `(b, l, k)`: the offset `k`. -/
theorem rowDims_coord1 {N D B L w : Nat}
    (wf : GatherDims.WF ⟨2, ![N, D]⟩ ⟨3, ![B, L, 1]⟩ ⟨3, ![B, L, D]⟩ [2] [0] [] [0] [] 2 ![1, D])
    (idx : IVec ⟨3, ![B, L, 1]⟩ w) (b : Fin B) (l : Fin L) (k : Fin D) :
    (rowDims N D B L wf).start (ix3 b l k) idx 1 + (rowDims N D B L wf).batchCoord (ix3 b l k) 1
      + (rowDims N D B L wf).offCoord (ix3 b l k) 1 = k.val := by
  rw [GatherDims.batchCoord_eq_zero _ _ _ List.not_mem_nil, Nat.add_zero]
  unfold GatherDims.start
  rw [dif_neg (show ¬ (1 : Fin 2) ∈ (rowDims N D B L wf).startIndexMap from
    (by decide : ¬ (1 : Fin 2) ∈ ([0] : List (Fin 2)))), Nat.zero_add]
  unfold GatherDims.offCoord
  rw [dif_pos (show (1 : Fin 2) ∈ (rowDims N D B L wf).sKept from (GatherDims.mem_sKept _ _).mpr
    ⟨(by decide : ¬ (1 : Fin 2) ∈ ([0] : List (Fin 2))), List.not_mem_nil⟩)]
  rfl

/-- THE ROW GATHER READ AT `(b, l, k)`: the operand at row `min (idx[b, l, 0] signed) (N - 1)`, column `k`. -/
theorem gather_rows_apply {N D B L w : Nat} (hN : 0 < N)
    (wf : GatherDims.WF ⟨2, ![N, D]⟩ ⟨3, ![B, L, 1]⟩ ⟨3, ![B, L, D]⟩ [2] [0] [] [0] [] 2 ![1, D])
    (x : (⟨2, ![N, D]⟩ : Shape).Idx → α) (idx : IVec ⟨3, ![B, L, 1]⟩ w)
    (b : Fin B) (l : Fin L) (k : Fin D) :
    Host.gather (rowDims N D B L wf) x idx (ix3 b l k)
      = x (ix2 (⟨min (idx (ix3 b l 0)).toInt.toNat (N - 1), by omega⟩ : Fin N) k) := by
  unfold Host.gather
  congr 1
  funext a
  refine Fin.ext ?_
  match a with
  | ⟨0, _⟩ => exact rowDims_coord0 wf idx b l k
  | ⟨1, _⟩ => exact rowDims_coord1 wf idx b l k

end Cert.Lib.RowGather3

end
-- ==== Proof.HostArrays.lean ====
/-
  The arrays the kernel region finds, as functions of the program's arguments: the query array, the key array, the
  weight array, the three row blocks of the hidden layer's weights, the output weights and the two biases, each read
  at an entry.
-/
import proofs.«144231_j34565896798471_1_alg».proof.Proof.Gen.KernelIdeal.Frame
import proofs.«144231_j34565896798471_1_alg».proof.Proof.Spec
import proofs.«144231_j34565896798471_1_alg».proof.Proof.LibRowGatherScatter
import proofs.«144231_j34565896798471_1_alg».proof.Proof.LibRowGather3
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.ShloMosaic.ValueIdx
  Idealize.SL.Sem Cert.Attn

/-! ## The pieces, over variables of the literal array types -/

/-- The query-side index array the row gather takes: the [4096, 1] indices flattened, a negative one moved up by
    the table length, then given back their unit axis. -/
def wrapQ (x : IVec S4096x1 32) : IVec S4096x1 32 :=
  broadcastInDim S4096x1 ![0] bcast_S4096_S4096x1_0
    (select
      (cmpi .slt (shapeCast S4096 x shapeCasts_S4096x1_S4096)
        (broadcastInDim S4096 ![] bcast_S_S4096 (constantI S_ 32 0#32)))
      (addi (shapeCast S4096 x shapeCasts_S4096x1_S4096)
        (broadcastInDim S4096 ![] bcast_S_S4096 (constantI S_ 32 100000#32)))
      (shapeCast S4096 x shapeCasts_S4096x1_S4096))

/-- Entry (b, 0) of the query-side index array is the wrapped index of batch row b. -/
theorem wrapQ_apply (x : IVec S4096x1 32) (b : Fin 4096) : wrapQ x (ix2 b 0) = wrapIx (x (ix2 b 0)) := by
  have hs : shapeCast S4096 x shapeCasts_S4096x1_S4096 (ix1 b) = x (ix2 b 0) :=
    shapeCast_apply x shapeCasts_S4096x1_S4096 (ix1 b) (ix2 b 0) (by
      rw [Shape.rowMajor_val_two, Shape.rowMajor_val_one]
      show b.val * 1 + 0 = b.val
      omega)
  unfold wrapQ
  rw [broadcastInDim_apply (![0]) bcast_S4096_S4096x1_0 _ (ix2 b 0) (ix1 b)
    (fun a => by match a with | ⟨0, _⟩ => rfl)]
  show Scalar.select (IntOp.cmpi .slt (shapeCast S4096 x shapeCasts_S4096x1_S4096 (ix1 b)) 0#32)
      (IntOp.addi (shapeCast S4096 x shapeCasts_S4096x1_S4096 (ix1 b)) 100000#32)
      (shapeCast S4096 x shapeCasts_S4096x1_S4096 (ix1 b)) = _
  rw [hs]
  rfl

/-- The key-side index array the row gather takes: the [4096, 1, 50] indices as [4096, 50], a negative one moved up
    by the table length, then given a trailing unit axis. -/
def wrapK (x : IVec S4096x1x50 32) : IVec S4096x50x1 32 :=
  broadcastInDim S4096x50x1 ![0, 1] bcast_S4096x50_S4096x50x1_0_1
    (select
      (cmpi .slt (shapeCast S4096x50 x shapeCasts_S4096x1x50_S4096x50)
        (broadcastInDim S4096x50 ![] bcast_S_S4096x50 (constantI S_ 32 0#32)))
      (addi (shapeCast S4096x50 x shapeCasts_S4096x1x50_S4096x50)
        (broadcastInDim S4096x50 ![] bcast_S_S4096x50 (constantI S_ 32 100000#32)))
      (shapeCast S4096x50 x shapeCasts_S4096x1x50_S4096x50))

/-- The [4096, 1, 50] array read as [4096, 50]: entry (b, l) is entry (b, 0, l). -/
theorem flat50_apply {α : Type} (x : S4096x1x50.Idx → α) (b : Fin 4096) (l : Fin 50) :
    shapeCast S4096x50 x shapeCasts_S4096x1x50_S4096x50 (ix2 b l) = x (ix3 b 0 l) :=
  shapeCast_apply x shapeCasts_S4096x1x50_S4096x50 (ix2 b l) (ix3 b 0 l) (by
    rw [Shape.rowMajor_val_three, Shape.rowMajor_val_two]
    show (b.val * 1 + 0) * 50 + l.val = b.val * 50 + l.val
    omega)

/-- Entry (b, l, 0) of the key-side index array is the wrapped index of batch row b at history position l. -/
theorem wrapK_apply (x : IVec S4096x1x50 32) (b : Fin 4096) (l : Fin 50) :
    wrapK x (ix3 b l 0) = wrapIx (x (ix3 b 0 l)) := by
  unfold wrapK
  rw [broadcastInDim_apply (![0, 1]) bcast_S4096x50_S4096x50x1_0_1 _ (ix3 b l 0) (ix2 b l)
    (fun a => by match a with | ⟨0, _⟩ => rfl | ⟨1, _⟩ => rfl)]
  show Scalar.select (IntOp.cmpi .slt (shapeCast S4096x50 x shapeCasts_S4096x1x50_S4096x50 (ix2 b l)) 0#32)
      (IntOp.addi (shapeCast S4096x50 x shapeCasts_S4096x1x50_S4096x50 (ix2 b l)) 100000#32)
      (shapeCast S4096x50 x shapeCasts_S4096x1x50_S4096x50 (ix2 b l)) = _
  rw [flat50_apply]
  rfl

/-- A word that is the wrapped index of x, read signed and clamped into [0, 99999], names the table row of x. -/
theorem row_eq (w x : BitVec 32) (h : w = wrapIx x) :
    (⟨min w.toInt.toNat (100000 - 1), by omega⟩ : Fin 100000) = rowIx x := by
  subst h
  rfl

/-- Two gathered rows side by side, query side: entry (b, j) is `pair` of the two tables at the rows the two index
    arrays name at (b, 0), read signed and clamped. -/
theorem cat2_apply (t1 t2 : Tab) (i1 i2 : IVec S4096x1 32) (b : Fin 4096) (j : Fin 128) :
    concatenate S4096x128 1
        [⟨S4096x64, Host.gather gather_S100000x64_S4096x1_S4096x64_1_0_n_n_0_1_164 t1 i1⟩,
         ⟨S4096x64, Host.gather gather_S100000x64_S4096x1_S4096x64_1_0_n_n_0_1_164 t2 i2⟩]
        concatenates_S4096x64_S4096x64_S4096x128_d1 (ix2 b j)
      = pair t1 t2 ⟨min (i1 (ix2 b 0)).toInt.toNat (100000 - 1), by omega⟩
          ⟨min (i2 (ix2 b 0)).toInt.toNat (100000 - 1), by omega⟩ j := by
  unfold pair
  by_cases h : j.val < 64
  · rw [dif_pos h]
    refine (concatenate_pair_apply_left (t := S4096x128) (s₁ := S4096x64) (s₂ := S4096x64) (1 : Fin 2) _ _ concatenates_S4096x64_S4096x64_S4096x128_d1 (ix2 b j) rfl
      (ix2 b (⟨j.val, h⟩ : Fin 64)) (fun a => by match a with | ⟨0, _⟩ => rfl | ⟨1, _⟩ => rfl)).trans ?_
    exact Cert.Lib.RowPass.ga_apply gather_S100000x64_S4096x1_S4096x64_1_0_n_n_0_1_164_wf (by decide) t1 i1 b ⟨j.val, h⟩
  · rw [dif_neg h]
    refine (concatenate_pair_apply_right (t := S4096x128) (s₁ := S4096x64) (s₂ := S4096x64) (1 : Fin 2) _ _ concatenates_S4096x64_S4096x64_S4096x128_d1 (ix2 b j) rfl rfl
      (ix2 b (⟨j.val - 64, by omega⟩ : Fin 64))
      (fun a ha => by match a with | ⟨0, _⟩ => rfl | ⟨1, _⟩ => exact absurd rfl ha)
      (by show j.val - 64 + 64 = j.val; omega)).trans ?_
    exact Cert.Lib.RowPass.ga_apply gather_S100000x64_S4096x1_S4096x64_1_0_n_n_0_1_164_wf (by decide) t2 i2 b ⟨j.val - 64, by omega⟩

/-- Two gathered rows side by side, key side: entry (b, l, j) is `pair` of the two tables at the rows the two index
    arrays name at (b, l, 0), read signed and clamped. -/
theorem cat3_apply (t1 t2 : Tab) (i1 i2 : IVec S4096x50x1 32) (b : Fin 4096) (l : Fin 50) (j : Fin 128) :
    concatenate S4096x50x128 2
        [⟨S4096x50x64, Host.gather gather_S100000x64_S4096x50x1_S4096x50x64_2_0_n_n_0_2_164 t1 i1⟩,
         ⟨S4096x50x64, Host.gather gather_S100000x64_S4096x50x1_S4096x50x64_2_0_n_n_0_2_164 t2 i2⟩]
        concatenates_S4096x50x64_S4096x50x64_S4096x50x128_d2 (ix3 b l j)
      = pair t1 t2 ⟨min (i1 (ix3 b l 0)).toInt.toNat (100000 - 1), by omega⟩
          ⟨min (i2 (ix3 b l 0)).toInt.toNat (100000 - 1), by omega⟩ j := by
  unfold pair
  by_cases h : j.val < 64
  · rw [dif_pos h]
    refine (concatenate_pair_apply_left (t := S4096x50x128) (s₁ := S4096x50x64) (s₂ := S4096x50x64) (2 : Fin 3) _ _ concatenates_S4096x50x64_S4096x50x64_S4096x50x128_d2 (ix3 b l j) rfl
      (ix3 b l (⟨j.val, h⟩ : Fin 64)) (fun a => by match a with | ⟨0, _⟩ => rfl | ⟨1, _⟩ => rfl | ⟨2, _⟩ => rfl)).trans ?_
    exact Cert.Lib.RowGather3.gather_rows_apply (by decide) gather_S100000x64_S4096x50x1_S4096x50x64_2_0_n_n_0_2_164_wf t1 i1 b l ⟨j.val, h⟩
  · rw [dif_neg h]
    refine (concatenate_pair_apply_right (t := S4096x50x128) (s₁ := S4096x50x64) (s₂ := S4096x50x64) (2 : Fin 3) _ _ concatenates_S4096x50x64_S4096x50x64_S4096x50x128_d2 (ix3 b l j) rfl rfl
      (ix3 b l (⟨j.val - 64, by omega⟩ : Fin 64))
      (fun a ha => by match a with | ⟨0, _⟩ => rfl | ⟨1, _⟩ => rfl | ⟨2, _⟩ => exact absurd rfl ha)
      (by show j.val - 64 + 64 = j.val; omega)).trans ?_
    exact Cert.Lib.RowGather3.gather_rows_apply (by decide) gather_S100000x64_S4096x50x1_S4096x50x64_2_0_n_n_0_2_164_wf t2 i2 b l ⟨j.val - 64, by omega⟩

/-- A block of 128 rows of the 384-row weight matrix, starting at row o, read at (j, u) (the narrowing of the
    number format that follows is the identity on extended reals). -/
theorem rows_apply (x : FVec Ideal S384x256 .f32) (o : Nat) (h : S384x256.Slices ![o, 0] S128x256) (ho : o + 128 ≤ 384)
    (j : Fin 128) (u : Fin 256) :
    (truncf .bf16 (extractStridedSlice S128x256 ![o, 0] x h) bitsLt_bf16_f32 : FVec Ideal S128x256 .bf16) (ix2 j u)
      = x (ix2 (⟨o + j.val, by omega⟩ : Fin 384) u) :=
  extractStridedSlice_apply ![o, 0] x h (ix2 j u) (ix2 (⟨o + j.val, by omega⟩ : Fin 384) u)
    (fun a => by match a with | ⟨0, _⟩ => rfl | ⟨1, _⟩ => exact (Nat.zero_add _).symm)

variable (m : (ℓ : Loc nD τ sig) → Buf (Elt Ideal) ℓ) (c : Dev nD)

/-- The query array at (b, j). -/
theorem q_apply (b : Fin 4096) (j : Fin 128) :
    (V m c main_v16 : S4096x128.Idx → EReal) (ix2 b j)
      = qv (m ((c : Thread nD τ).loc main_arg0)) (m ((c : Thread nD τ).loc main_arg1))
          (m ((c : Thread nD τ).loc main_arg5)) (m ((c : Thread nD τ).loc main_arg6)) b j := by
  have e : (V m c main_v16 : S4096x128.Idx → EReal)
      = concatenate S4096x128 1
          [⟨S4096x64, Host.gather gather_S100000x64_S4096x1_S4096x64_1_0_n_n_0_1_164
              (m ((c : Thread nD τ).loc main_arg5) : S100000x64.Idx → EReal) (wrapQ (m ((c : Thread nD τ).loc main_arg0)))⟩,
           ⟨S4096x64, Host.gather gather_S100000x64_S4096x1_S4096x64_1_0_n_n_0_1_164
              (m ((c : Thread nD τ).loc main_arg6) : S100000x64.Idx → EReal) (wrapQ (m ((c : Thread nD τ).loc main_arg1)))⟩]
          concatenates_S4096x64_S4096x64_S4096x128_d1 := by
    show StableHlo.after hostOps0 (fun b => m (c, b)) (Proc.devRef .tc main_v16) = _
    after_results_simp
    rfl
  refine (congrFun e (ix2 b j)).trans ?_
  rw [cat2_apply, row_eq _ _ (wrapQ_apply _ b), row_eq _ _ (wrapQ_apply _ b)]
  rfl

/-- The key array at (b, l, j). -/
theorem k_apply (b : Fin 4096) (l : Fin 50) (j : Fin 128) :
    (V m c main_v33 : S4096x50x128.Idx → EReal) (ix3 b l j)
      = kv (m ((c : Thread nD τ).loc main_arg2)) (m ((c : Thread nD τ).loc main_arg3))
          (m ((c : Thread nD τ).loc main_arg5)) (m ((c : Thread nD τ).loc main_arg6)) b l j := by
  have e : (V m c main_v33 : S4096x50x128.Idx → EReal)
      = concatenate S4096x50x128 2
          [⟨S4096x50x64, Host.gather gather_S100000x64_S4096x50x1_S4096x50x64_2_0_n_n_0_2_164
              (m ((c : Thread nD τ).loc main_arg5) : S100000x64.Idx → EReal) (wrapK (m ((c : Thread nD τ).loc main_arg2)))⟩,
           ⟨S4096x50x64, Host.gather gather_S100000x64_S4096x50x1_S4096x50x64_2_0_n_n_0_2_164
              (m ((c : Thread nD τ).loc main_arg6) : S100000x64.Idx → EReal) (wrapK (m ((c : Thread nD τ).loc main_arg3)))⟩]
          concatenates_S4096x50x64_S4096x50x64_S4096x50x128_d2 := by
    show StableHlo.after hostOps0 (fun b => m (c, b)) (Proc.devRef .tc main_v33) = _
    after_results_simp
    rfl
  refine (congrFun e (ix3 b l j)).trans ?_
  rw [cat3_apply, row_eq _ _ (wrapK_apply _ b l), row_eq _ _ (wrapK_apply _ b l)]
  rfl

/-- The weight array at (b, l, 0). -/
theorem m_apply (b : Fin 4096) (l : Fin 50) :
    (V m c main_v36 : S4096x50x1.Idx → EReal) (ix3 b l 0) = mv (m ((c : Thread nD τ).loc main_arg4)) b l := by
  have e : (V m c main_v36 : S4096x50x1.Idx → EReal)
      = broadcastInDim S4096x50x1 ![0, 1] bcast_S4096x50_S4096x50x1_0_1
          (uitofp (F := Ideal) .f32
            (shapeCast S4096x50 (m ((c : Thread nD τ).loc main_arg4) : IVec S4096x1x50 1) shapeCasts_S4096x1x50_S4096x50)) := by
    show StableHlo.after hostOps0 (fun b => m (c, b)) (Proc.devRef .tc main_v36) = _
    after_results
    rfl
  refine (congrFun e (ix3 b l 0)).trans ?_
  rw [broadcastInDim_apply (![0, 1]) bcast_S4096x50_S4096x50x1_0_1 _ (ix3 b l 0) (ix2 b l)
    (fun a => by match a with | ⟨0, _⟩ => rfl | ⟨1, _⟩ => rfl)]
  show FloatOps.uitofp (F := Ideal) .f32 (shapeCast S4096x50 _ shapeCasts_S4096x1x50_S4096x50 (ix2 b l)) = _
  rw [flat50_apply]
  rfl

/-- Rows 0..127 of the hidden layer's weights. -/
theorem w1_apply (j : Fin 128) (u : Fin 256) :
    (V m c main_v38 : S128x256.Idx → EReal) (ix2 j u)
      = (m ((c : Thread nD τ).loc main_arg7) : S384x256.Idx → EReal) (ix2 (⟨j.val, by omega⟩ : Fin 384) u) := by
  have e : (V m c main_v38 : S128x256.Idx → EReal)
      = (truncf .bf16 (extractStridedSlice S128x256 ![0, 0]
          (m ((c : Thread nD τ).loc main_arg7) : FVec Ideal S384x256 .f32) slices_S384x256_S128x256_0_0) bitsLt_bf16_f32
          : FVec Ideal S128x256 .bf16) := by
    show StableHlo.after hostOps0 (fun b => m (c, b)) (Proc.devRef .tc main_v38) = _
    after_results
  refine (congrFun e (ix2 j u)).trans ?_
  refine (rows_apply _ 0 slices_S384x256_S128x256_0_0 (by omega) j u).trans ?_
  exact congrArg _ (congrArg (fun r => ix2 r u) (Fin.ext (Nat.zero_add _)))

/-- Rows 128..255 of the hidden layer's weights. -/
theorem w2_apply (j : Fin 128) (u : Fin 256) :
    (V m c main_v40 : S128x256.Idx → EReal) (ix2 j u)
      = (m ((c : Thread nD τ).loc main_arg7) : S384x256.Idx → EReal) (ix2 (⟨128 + j.val, by omega⟩ : Fin 384) u) := by
  have e : (V m c main_v40 : S128x256.Idx → EReal)
      = (truncf .bf16 (extractStridedSlice S128x256 ![128, 0]
          (m ((c : Thread nD τ).loc main_arg7) : FVec Ideal S384x256 .f32) slices_S384x256_S128x256_128_0) bitsLt_bf16_f32
          : FVec Ideal S128x256 .bf16) := by
    show StableHlo.after hostOps0 (fun b => m (c, b)) (Proc.devRef .tc main_v40) = _
    after_results
  refine (congrFun e (ix2 j u)).trans ?_
  exact rows_apply _ 128 slices_S384x256_S128x256_128_0 (by omega) j u

/-- Rows 256..383 of the hidden layer's weights. -/
theorem w3_apply (j : Fin 128) (u : Fin 256) :
    (V m c main_v42 : S128x256.Idx → EReal) (ix2 j u)
      = (m ((c : Thread nD τ).loc main_arg7) : S384x256.Idx → EReal) (ix2 (⟨256 + j.val, by omega⟩ : Fin 384) u) := by
  have e : (V m c main_v42 : S128x256.Idx → EReal)
      = (truncf .bf16 (extractStridedSlice S128x256 ![256, 0]
          (m ((c : Thread nD τ).loc main_arg7) : FVec Ideal S384x256 .f32) slices_S384x256_S128x256_256_0) bitsLt_bf16_f32
          : FVec Ideal S128x256 .bf16) := by
    show StableHlo.after hostOps0 (fun b => m (c, b)) (Proc.devRef .tc main_v42) = _
    after_results
  refine (congrFun e (ix2 j u)).trans ?_
  exact rows_apply _ 256 slices_S384x256_S128x256_256_0 (by omega) j u

/-- The output weights. -/
theorem wo_apply (u : Fin 256) :
    (V m c main_v43 : S256x1.Idx → EReal) (ix2 u 0)
      = (m ((c : Thread nD τ).loc main_arg9) : S256x1.Idx → EReal) (ix2 u 0) := by
  have e : (V m c main_v43 : S256x1.Idx → EReal)
      = (truncf .bf16 (m ((c : Thread nD τ).loc main_arg9) : FVec Ideal S256x1 .f32) bitsLt_bf16_f32
          : FVec Ideal S256x1 .bf16) := by
    show StableHlo.after hostOps0 (fun b => m (c, b)) (Proc.devRef .tc main_v43) = _
    after_results
  exact congrFun e (ix2 u 0)

/-- The hidden layer's bias as one row. -/
theorem bh_apply (u : Fin 256) :
    (V m c main_v44 : S1x256.Idx → EReal) (ix2 0 u)
      = (m ((c : Thread nD τ).loc main_arg8) : S256.Idx → EReal) (ix1 u) := by
  have e : (V m c main_v44 : S1x256.Idx → EReal)
      = shapeCast S1x256 (m ((c : Thread nD τ).loc main_arg8) : S256.Idx → EReal) shapeCasts_S256_S1x256 := by
    show StableHlo.after hostOps0 (fun b => m (c, b)) (Proc.devRef .tc main_v44) = _
    after_results
    rfl
  refine (congrFun e (ix2 0 u)).trans ?_
  exact shapeCast_apply _ shapeCasts_S256_S1x256 (ix2 0 u) (ix1 u) (by
    rw [Shape.rowMajor_val_two, Shape.rowMajor_val_one]
    show u.val = 0 * 256 + u.val
    omega)

/-- The output bias as a one-by-one matrix. -/
theorem bo_apply :
    (V m c main_v45 : S1x1.Idx → EReal) (ix2 0 0)
      = (m ((c : Thread nD τ).loc main_arg10) : S1.Idx → EReal) (ix1 0) := by
  have e : (V m c main_v45 : S1x1.Idx → EReal)
      = shapeCast S1x1 (m ((c : Thread nD τ).loc main_arg10) : S1.Idx → EReal) shapeCasts_S1_S1x1 := by
    show StableHlo.after hostOps0 (fun b => m (c, b)) (Proc.devRef .tc main_v45) = _
    after_results
    rfl
  refine (congrFun e (ix2 0 0)).trans ?_
  exact shapeCast_apply _ shapeCasts_S1_S1x1 (ix2 0 0) (ix1 0) (by
    rw [Shape.rowMajor_val_two, Shape.rowMajor_val_one]
    rfl)

end Cert.KernelIdeal.Host

end
-- ==== Proof.KernelValue.lean ====
/-
  The kernel program's result as one function of its arguments.

  The region works on 64 batch rows at a time: grid point t reads rows 64 t .. 64 t + 63 of the query, key and weight
  arrays and the whole of the six parameter arrays, and stores a 64 x 128 block.  Entry (p, e) of that block is the
  closed-form row result of batch row 64 t + p in its group-by-group spelling, which is the one-sum spelling of the
  closed form; so point t writes back block t of the closed form.  The 64 blocks tile the 4096 x 128 array (row r lies
  in block r / 64), hence the array ends at the closed form everywhere, and the program's result is that array with a
  unit axis inserted.
-/
import proofs.«144231_j34565896798471_1_alg».proof.Proof.Gen.KernelIdeal.Frame
import proofs.«144231_j34565896798471_1_alg».proof.Proof.Spec
import proofs.«144231_j34565896798471_1_alg».proof.Proof.Closed
import proofs.«144231_j34565896798471_1_alg».proof.Proof.Payload
import proofs.«144231_j34565896798471_1_alg».proof.Proof.HostArrays
import proofs.«144231_j34565896798471_1_alg».proof.Proof.LibUnitAxes
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.ShloMosaic.ValueIdx
  Idealize.SL.Sem Cert.Attn

variable (m : (ℓ : Loc nD τ sig) → Buf (Elt Ideal) ℓ) (ρ : Dev nD → PrngReg)

/-! ## Which block of each array a grid point works on -/

/-- At grid point t the query, key, weight and output windows are on block row t (and block 0 on their other axes). -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_9.index t (0 : Fin 2) = t.val ∧ win0_9.index t (1 : Fin 2) = 0 :=
  (by decide +kernel : ∀ t : Fin grid0.N, _)

/-- The six parameter windows are on their one block at every grid point. -/
theorem idx_facts' : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The batch row that row p of block t is: 64 t + p. -/
abbrev brow (t : Fin cfg0.N) (p : Fin 64) : Fin 4096 :=
  ⟨64 * t.val + p.val, by have := t.isLt; have : cfg0.N = 64 := N_0; omega⟩

/-! ## The input blocks read off their arrays -/

theorem blk0 (c : Dev nD) (t : Fin cfg0.N) (p : Fin 64) (j : Fin 128) :
    (iblk m c 0 t : S64x128.Idx → EReal) (ix2 p j) = (V m c main_v16 : S4096x128.Idx → EReal) (ix2 (brow t p) j) := by
  obtain ⟨e0, e1, -⟩ := idx_facts t
  show (V m c main_v16 : S4096x128.Idx → EReal) (((cfg0.win 0).blk t).view.emb (ix2 p j)) = _
  congr 1
  funext a; apply Fin.ext
  match a with
  | ⟨0, _⟩ => show win0_0.index t (0 : Fin 2) * 64 + 1 * p.val = 64 * t.val + p.val; omega
  | ⟨1, _⟩ => show win0_0.index t (1 : Fin 2) * 128 + 1 * j.val = j.val; omega

theorem blk1 (c : Dev nD) (t : Fin cfg0.N) (p : Fin 64) (l : Fin 50) (j : Fin 128) :
    (iblk m c 1 t : S64x50x128.Idx → EReal) (ix3 p l j)
      = (V m c main_v33 : S4096x50x128.Idx → EReal) (ix3 (brow t p) l j) := by
  obtain ⟨-, -, e0, e1, e2, -⟩ := idx_facts t
  show (V m c main_v33 : S4096x50x128.Idx → EReal) (((cfg0.win 1).blk t).view.emb (ix3 p l j)) = _
  congr 1
  funext a; apply Fin.ext
  match a with
  | ⟨0, _⟩ => show win0_1.index t (0 : Fin 3) * 64 + 1 * p.val = 64 * t.val + p.val; omega
  | ⟨1, _⟩ => show win0_1.index t (1 : Fin 3) * 50 + 1 * l.val = l.val; omega
  | ⟨2, _⟩ => show win0_1.index t (2 : Fin 3) * 128 + 1 * j.val = j.val; omega

theorem blk2 (c : Dev nD) (t : Fin cfg0.N) (p : Fin 64) (l : Fin 50) :
    (iblk m c 2 t : S64x50x1.Idx → EReal) (ix3 p l 0)
      = (V m c main_v36 : S4096x50x1.Idx → EReal) (ix3 (brow t p) l 0) := by
  obtain ⟨-, -, -, -, -, e0, e1, e2, -⟩ := idx_facts t
  show (V m c main_v36 : S4096x50x1.Idx → EReal) (((cfg0.win 2).blk t).view.emb (ix3 p l 0)) = _
  congr 1
  funext a; apply Fin.ext
  match a with
  | ⟨0, _⟩ => show win0_2.index t (0 : Fin 3) * 64 + 1 * p.val = 64 * t.val + p.val; omega
  | ⟨1, _⟩ => show win0_2.index t (1 : Fin 3) * 50 + 1 * l.val = l.val; omega
  | ⟨2, _⟩ => show win0_2.index t (2 : Fin 3) * 1 + 1 * 0 = 0; omega

theorem blk3 (c : Dev nD) (t : Fin cfg0.N) (j : Fin 128) (u : Fin 256) :
    (iblk m c 3 t : S128x256.Idx → EReal) (ix2 j u) = (V m c main_v38 : S128x256.Idx → EReal) (ix2 j u) := by
  obtain ⟨⟨e0, e1⟩, -⟩ := idx_facts' t
  show (V m c main_v38 : S128x256.Idx → EReal) (((cfg0.win 3).blk t).view.emb (ix2 j u)) = _
  congr 1
  funext a; apply Fin.ext
  match a with
  | ⟨0, _⟩ => show win0_3.index t (0 : Fin 2) * 128 + 1 * j.val = j.val; omega
  | ⟨1, _⟩ => show win0_3.index t (1 : Fin 2) * 256 + 1 * u.val = u.val; omega

theorem blk4 (c : Dev nD) (t : Fin cfg0.N) (j : Fin 128) (u : Fin 256) :
    (iblk m c 4 t : S128x256.Idx → EReal) (ix2 j u) = (V m c main_v40 : S128x256.Idx → EReal) (ix2 j u) := by
  obtain ⟨-, ⟨e0, e1⟩, -⟩ := idx_facts' t
  show (V m c main_v40 : S128x256.Idx → EReal) (((cfg0.win 4).blk t).view.emb (ix2 j u)) = _
  congr 1
  funext a; apply Fin.ext
  match a with
  | ⟨0, _⟩ => show win0_4.index t (0 : Fin 2) * 128 + 1 * j.val = j.val; omega
  | ⟨1, _⟩ => show win0_4.index t (1 : Fin 2) * 256 + 1 * u.val = u.val; omega

theorem blk5 (c : Dev nD) (t : Fin cfg0.N) (j : Fin 128) (u : Fin 256) :
    (iblk m c 5 t : S128x256.Idx → EReal) (ix2 j u) = (V m c main_v42 : S128x256.Idx → EReal) (ix2 j u) := by
  obtain ⟨-, -, ⟨e0, e1⟩, -⟩ := idx_facts' t
  show (V m c main_v42 : S128x256.Idx → EReal) (((cfg0.win 5).blk t).view.emb (ix2 j u)) = _
  congr 1
  funext a; apply Fin.ext
  match a with
  | ⟨0, _⟩ => show win0_5.index t (0 : Fin 2) * 128 + 1 * j.val = j.val; omega
  | ⟨1, _⟩ => show win0_5.index t (1 : Fin 2) * 256 + 1 * u.val = u.val; omega

theorem blk6 (c : Dev nD) (t : Fin cfg0.N) (u : Fin 256) :
    (iblk m c 6 t : S256x1.Idx → EReal) (ix2 u 0) = (V m c main_v43 : S256x1.Idx → EReal) (ix2 u 0) := by
  obtain ⟨-, -, -, ⟨e0, e1⟩, -⟩ := idx_facts' t
  show (V m c main_v43 : S256x1.Idx → EReal) (((cfg0.win 6).blk t).view.emb (ix2 u 0)) = _
  congr 1
  funext a; apply Fin.ext
  match a with
  | ⟨0, _⟩ => show win0_6.index t (0 : Fin 2) * 256 + 1 * u.val = u.val; omega
  | ⟨1, _⟩ => show win0_6.index t (1 : Fin 2) * 1 + 1 * 0 = 0; omega

theorem blk7 (c : Dev nD) (t : Fin cfg0.N) (u : Fin 256) :
    (iblk m c 7 t : S1x256.Idx → EReal) (ix2 0 u) = (V m c main_v44 : S1x256.Idx → EReal) (ix2 0 u) := by
  obtain ⟨-, -, -, -, ⟨e0, e1⟩, -⟩ := idx_facts' t
  show (V m c main_v44 : S1x256.Idx → EReal) (((cfg0.win 7).blk t).view.emb (ix2 0 u)) = _
  congr 1
  funext a; apply Fin.ext
  match a with
  | ⟨0, _⟩ => show win0_7.index t (0 : Fin 2) * 1 + 1 * 0 = 0; omega
  | ⟨1, _⟩ => show win0_7.index t (1 : Fin 2) * 256 + 1 * u.val = u.val; omega

theorem blk8 (c : Dev nD) (t : Fin cfg0.N) :
    (iblk m c 8 t : S1x1.Idx → EReal) (ix2 0 0) = (V m c main_v45 : S1x1.Idx → EReal) (ix2 0 0) := by
  obtain ⟨-, -, -, -, -, ⟨e0, e1⟩⟩ := idx_facts' t
  show (V m c main_v45 : S1x1.Idx → EReal) (((cfg0.win 8).blk t).view.emb (ix2 0 0)) = _
  congr 1
  funext a; apply Fin.ext
  match a with
  | ⟨0, _⟩ => show win0_8.index t (0 : Fin 2) * 1 + 1 * 0 = 0; omega
  | ⟨1, _⟩ => show win0_8.index t (1 : Fin 2) * 1 + 1 * 0 = 0; omega

/-! ## The output array -/

/-- What the output array ends holding: the closed form of the program's arguments. -/
def G (c : Dev nD) : S4096x128.Idx → EReal := fun i =>
  attn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (i 0) (i 1)

/-- WHAT POINT t WRITES BACK is block t of the closed form. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after0_9]
  funext j
  obtain ⟨p, e, rfl⟩ : ∃ (p : Fin 64) (e : Fin 128), j = ix2 p e := ⟨j 0, j 1, eq_ix2 j⟩
  show out0_9 (F := Ideal) (iblk m c 0 t) (iblk m c 1 t) (iblk m c 2 t) (iblk m c 3 t) (iblk m c 4 t) (iblk m c 5 t)
      (iblk m c 6 t) (iblk m c 7 t) (iblk m c 8 t) (ix2 p e) = G m c (((cfg0.win 9).blk t).view.emb (ix2 p e))
  refine (Block.out_apply (iblk m c 0 t) (iblk m c 1 t) (iblk m c 2 t) (iblk m c 3 t) (iblk m c 4 t) (iblk m c 5 t)
      (iblk m c 6 t) (iblk m c 7 t) (iblk m c 8 t) p e).trans ?_
  have hemb : ((cfg0.win 9).blk t).view.emb (ix2 p e) = ix2 (brow t p) e := by
    obtain ⟨-, -, -, -, -, -, -, -, e0, e1⟩ := idx_facts t
    funext a; apply Fin.ext
    match a with
    | ⟨0, _⟩ => show win0_9.index t (0 : Fin 2) * 64 + 1 * p.val = 64 * t.val + p.val; omega
    | ⟨1, _⟩ => show win0_9.index t (1 : Fin 2) * 128 + 1 * e.val = e.val; omega
  rw [hemb]
  simp only [blk0 m c t, blk1 m c t, blk2 m c t, blk3 m c t, blk4 m c t, blk5 m c t, blk6 m c t, blk7 m c t, blk8 m c t,
    Host.q_apply m c, Host.k_apply m c, Host.m_apply m c, Host.w1_apply m c, Host.w2_apply m c, Host.w3_apply m c,
    Host.wo_apply m c, Host.bh_apply m c, Host.bo_apply m c]
  exact rowOutK_eq_rowOutR _ _ _ _ _ _ (fun j u => (m ((c : Thread nD τ).loc main_arg7) : S384x256.Idx → EReal) (ix2 j u)) e

/-- An index of the array is in point t's block iff each coordinate is in the block's range on its axis. -/
theorem mem_blk (t : Fin cfg0.N) (i : S4096x128.Idx) :
    i ∈ ((cfg0.win 9).blk t).view.set ↔ ∀ a : Fin 2, win0_9.index t a * S64x128.size a ≤ (i a).val
      ∧ (i a).val < win0_9.index t a * S64x128.size a + S64x128.size a := by
  show i ∈ ((View.whole main_v46).slice (win0_9.rect t)).set ↔ _
  rw [View.set_slice_whole, Rect.mem_set_unit]
  exact Iff.rfl

/-- Every entry of the array lies in some point's block: row r in block r / 64. -/
theorem cover (i : S4096x128.Idx) :
    ∃ t : Fin cfg0.N, (cfg0.win 9).flush t = true ∧ i ∈ ((cfg0.win 9).blk t).view.set := by
  have hi0 : (i 0).val < 4096 := (i 0).isLt
  have hi1 : (i 1).val < 128 := (i 1).isLt
  have hN : cfg0.N = 64 := N_0
  let t : Fin cfg0.N := ⟨(i 0).val / 64, by omega⟩
  obtain ⟨-, -, -, -, -, -, -, -, e0, e1⟩ := idx_facts t
  have ht : t.val = (i 0).val / 64 := rfl
  refine ⟨t, flush0_9 t, ?_⟩
  rw [mem_blk]
  intro a
  match a with
  | ⟨0, _⟩ =>
    show win0_9.index t (0 : Fin 2) * 64 ≤ (i 0).val ∧ (i 0).val < win0_9.index t (0 : Fin 2) * 64 + 64
    omega
  | ⟨1, _⟩ =>
    show win0_9.index t (1 : Fin 2) * 128 ≤ (i 1).val ∧ (i 1).val < win0_9.index t (1 : Fin 2) * 128 + 128
    omega

/-- THE ARRAY after the region: the closed form, everywhere. -/
theorem final9 (c : Dev nD) : (dats m 0 c).arrAt 9 cfg0.N = G m c :=
  (dats m 0 c).arrAt_eq_of_cover 9 (G m c) (fun t _ => flushed_eq m c t) cover

/-- The program's result: the array with a unit axis inserted. -/
theorem tail_eq (c : Dev nD) :
    Pipeline.afterTail₀ cfgs (dats m) 0 (V0 m) [hostOps1] c main_v47
      = (fun i : S4096x1x128.Idx => G m c (ix2 (i 0) (i 2))) := by
  unfold Pipeline.afterTail₀
  show StableHlo.after hostOps1 _ (Proc.devRef .tc main_v47) = _
  after_results
  have hW : Pipeline.withArrays (cfgs 0).spec c (V0 m c) (fun w => (dats m 0 c).arrAt w (cfgs 0).N)
      (Proc.devRef .tc main_v46) = G m c :=
    (Pipeline.withArrays_arr spec0 launch0.win.arr_inj c _ _ 9).trans (final9 m c)
  funext i
  obtain ⟨b, z, e, rfl⟩ : ∃ (b : Fin 4096) (z : Fin 1) (e : Fin 128), i = ix3 b z e := ⟨i 0, i 1, i 2, eq_ix3 i⟩
  show shapeCast S4096x1x128 (Pipeline.withArrays (cfgs 0).spec c (V0 m c) (fun w => (dats m 0 c).arrAt w (cfgs 0).N)
      (Proc.devRef .tc main_v46)) shapeCasts_S4096x128_S4096x1x128 (ix3 b z e) = G m c (ix2 b e)
  rw [hW]
  exact shapeCast_ab_a1b_apply (G m c) shapeCasts_S4096x128_S4096x1x128 b z e

/-! ## The run, read -/

/-- Every weakly fair execution of the kernel program terminates with the result at the closed form of the arguments
    and the arguments unchanged. -/
theorem run : θ_run defs (onTc (τ := τ) (main (F := Ideal))) ⟨m, fun _ => 0, ρ⟩ fun r => ∀ c : Dev nD,
      r.2.mem ((c.tc : Thread nD τ).loc main_v47) = (fun i : S4096x1x128.Idx => G m c (ix2 (i 0) (i 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v47 (Pipeline.mem_restRefs_of main_v47 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Whole

end
-- ==== Proof.LibConcatPieces.lean ====
/-
  A concatenation's pieces as plain arguments, and a three-operand host operation's result (general lemmas: nothing
  here depends on a program).

  The concatenation of a list of arrays takes, beside the list, a fact about the list's shapes; so a piece inside the
  list cannot be replaced by an equal piece by rewriting alone (the fact's statement mentions the list).  `cat2` and
  `cat3` are the two- and three-piece concatenations with the pieces as ordinary arguments, equal to the list form
  by definition: rewrite a concatenation into that form first, and its pieces can then be rewritten one by one.

  A host operation over a literal family of three operand buffers (a three-piece concatenate) leaves in its result
  buffer its function of the three operands' contents, each read at its own buffer.
-/
import Idealize.ShloMosaic.Lib.StableHlo.Run

noncomputable section

namespace Idealize.ShloMosaic.StableHlo

open Idealize.SL.Sem

section Nary3
variable {nD : Nat} {τ : Topo} {sig : RefSig} {Val : EltTy → Type}
variable {x a b y : Ref sig .tc}

/-- The result of an operation over the three operand buffers x, a, b: its function of the family that holds each
    operand's contents at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated so that a simplifier pass finds it whatever the result buffer's spelling. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F
end Nary3

/-- The third entry of a three-entry dependent family built entry by entry. -/
theorem cons3_two {α : Fin 3 → Sort _} (x : α 0) (a : α 1) (b : α 2) (e : ∀ i : Fin 0, α i.succ.succ.succ) :
    (Fin.cons (α := α) x (Fin.cons (α := fun i : Fin 2 => α i.succ) a (Fin.cons (α := fun i : Fin 1 => α i.succ.succ) b e))) 2 = b := rfl

section Pieces
variable {α : Type}

/-- A three-piece concatenation with the pieces as plain arguments. -/
def cat3 (t : Shape) (a : Fin t.rank) (s0 s1 s2 : Shape) (h : Shape.Concatenates [s0, s1, s2] t a)
    (x0 : s0.Idx → α) (x1 : s1.Idx → α) (x2 : s2.Idx → α) : t.Idx → α :=
  concatenate t a [⟨s0, x0⟩, ⟨s1, x1⟩, ⟨s2, x2⟩] h

/-- The list form is the plain-argument form. -/
theorem concatenate_eq_cat3 (t : Shape) (a : Fin t.rank) (s0 s1 s2 : Shape)
    (x0 : s0.Idx → α) (x1 : s1.Idx → α) (x2 : s2.Idx → α)
    (h : Shape.Concatenates (List.map (fun p : (s : Shape) × (s.Idx → α) => p.1) [⟨s0, x0⟩, ⟨s1, x1⟩, ⟨s2, x2⟩]) t a) :
    concatenate t a [⟨s0, x0⟩, ⟨s1, x1⟩, ⟨s2, x2⟩] h
      = cat3 t a s0 s1 s2 (show Shape.Concatenates [s0, s1, s2] t a from h) x0 x1 x2 := rfl

/-- A two-piece concatenation with the pieces as plain arguments. -/
def cat2 (t : Shape) (a : Fin t.rank) (s0 s1 : Shape) (h : Shape.Concatenates [s0, s1] t a)
    (x0 : s0.Idx → α) (x1 : s1.Idx → α) : t.Idx → α :=
  concatenate t a [⟨s0, x0⟩, ⟨s1, x1⟩] h

/-- The list form is the plain-argument form. -/
theorem concatenate_eq_cat2 (t : Shape) (a : Fin t.rank) (s0 s1 : Shape)
    (x0 : s0.Idx → α) (x1 : s1.Idx → α)
    (h : Shape.Concatenates (List.map (fun p : (s : Shape) × (s.Idx → α) => p.1) [⟨s0, x0⟩, ⟨s1, x1⟩]) t a) :
    concatenate t a [⟨s0, x0⟩, ⟨s1, x1⟩] h
      = cat2 t a s0 s1 (show Shape.Concatenates [s0, s1] t a from h) x0 x1 := rfl
end Pieces

end Idealize.ShloMosaic.StableHlo

end
-- ==== Proof.LibGatherConcat.lean ====
/-
  Reading three shape operations at an index, and splitting a sum over 640 terms into four sums over 160
  (general lemmas: nothing here depends on a program).

  * A row gather. For an operand [N, D] and an array of start indices [B, L, M, 1] with the dimension numbers
    "offset axis 3, collapsed operand axis 0, start index map [0], index vector axis 3, slices 1 × D", the result
    [B, L, M, D] at (b, l, m, k) is the operand's row r at column k, where r is the start index at (b, l, m, 0) read as
    a signed integer, a negative value taken to 0, capped at N − 1.
  * A concatenation of four pieces [4, 200, 200, 160] along the last axis into [4, 200, 200, 640]: at column
    160·t + k it is piece t at column k. Likewise four pieces [4, 5, 4, 1] into [4, 5, 4, 4]: at column t it is piece
    t at column 0.
  * A sum over 640 terms is the sum over t < 4 of the sums over k < 160 of the term at 160·t + k (the map
    (t, k) ↦ 160·t + k is a bijection onto the 640 indices), also written out as four sums.
-/
import Idealize.ShloMosaic.Lib.ValueIdx
import Idealize.ShloMosaic.Lib.Pipeline.Value
import Idealize.ShloMosaic.PureOps.Ideal
import Mathlib.Algebra.BigOperators.Fin
import Mathlib.Data.Fintype.BigOperators
import Mathlib.Logic.Equiv.Fin.Basic

noncomputable section

open scoped BigOperators

namespace Cert.Lib.GatherConcat

open Idealize.ShloMosaic Idealize.ShloMosaic.ValueIdx

/-! ## A row gather read at an index -/

section Rows
variable {α : Type}

/-- The dimension numbers of a row gather: operand `[N, D]`, start indices `[B, L, M, 1]`, result `[B, L, M, D]`;
    offset axis 3, operand axis 0 collapsed and named by the start index map, the index vector on axis 3, slices
    `1 × D`. Their conditions `wf` are decided on literal shapes; a record with these fields is this one by `rfl`. -/
abbrev rowDims (N D B L M : Nat)
    (wf : GatherDims.WF ⟨2, ![N, D]⟩ ⟨4, ![B, L, M, 1]⟩ ⟨4, ![B, L, M, D]⟩ [3] [0] [] [0] [] 3 ![1, D]) :
    GatherDims ⟨2, ![N, D]⟩ ⟨4, ![B, L, M, 1]⟩ ⟨4, ![B, L, M, D]⟩ where
  offsetDims := [3]
  collapsedSliceDims := [0]
  operandBatchingDims := []
  startIndicesBatchingDims := []
  startIndexMap := [0]
  indexVectorDim := 3
  sliceSizes := ![1, D]
  wf := wf

/-- The operand's row coordinate read by result index `(b, l, m, k)`: the start index at `(b, l, m, 0)`, signed,
    capped into `[0, N − 1]` (no batching axis, and a collapsed axis has no offset). -/
theorem rowDims_coord0 {N D B L M w : Nat}
    (wf : GatherDims.WF ⟨2, ![N, D]⟩ ⟨4, ![B, L, M, 1]⟩ ⟨4, ![B, L, M, D]⟩ [3] [0] [] [0] [] 3 ![1, D])
    (idx : IVec ⟨4, ![B, L, M, 1]⟩ w) (b : Fin B) (l : Fin L) (m : Fin M) (k : Fin D) :
    (rowDims N D B L M wf).start (ix4 b l m k) idx 0 + (rowDims N D B L M wf).batchCoord (ix4 b l m k) 0
      + (rowDims N D B L M wf).offCoord (ix4 b l m k) 0 = min (idx (ix4 b l m 0)).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowDims N D B L M wf).startIndexMap from List.mem_singleton.mpr rfl)]
  have hsi : (rowDims N D B L M wf).siIdx (ix4 b l m k) ⟨List.idxOf (0 : Fin 2) (rowDims N D B L M wf).startIndexMap,
      List.idxOf_lt_length_iff.2 (List.mem_singleton.mpr rfl)⟩ = ix4 b l m 0 := by
    funext c; refine Fin.ext ?_
    match c with
    | ⟨0, _⟩ => rfl
    | ⟨1, _⟩ => rfl
    | ⟨2, _⟩ => rfl
    | ⟨3, _⟩ => rfl
  rw [hsi]
  rfl

/-- The operand's column coordinate read by result index `(b, l, m, k)`: the offset `k` (the start index map does not
    name axis 1, so its slice starts at 0). -/
theorem rowDims_coord1 {N D B L M w : Nat}
    (wf : GatherDims.WF ⟨2, ![N, D]⟩ ⟨4, ![B, L, M, 1]⟩ ⟨4, ![B, L, M, D]⟩ [3] [0] [] [0] [] 3 ![1, D])
    (idx : IVec ⟨4, ![B, L, M, 1]⟩ w) (b : Fin B) (l : Fin L) (m : Fin M) (k : Fin D) :
    (rowDims N D B L M wf).start (ix4 b l m k) idx 1 + (rowDims N D B L M wf).batchCoord (ix4 b l m k) 1
      + (rowDims N D B L M wf).offCoord (ix4 b l m k) 1 = k.val := by
  rw [GatherDims.batchCoord_eq_zero _ _ _ List.not_mem_nil, Nat.add_zero]
  unfold GatherDims.start
  rw [dif_neg (show ¬ (1 : Fin 2) ∈ (rowDims N D B L M wf).startIndexMap from
    (by decide : ¬ (1 : Fin 2) ∈ ([0] : List (Fin 2)))), Nat.zero_add]
  unfold GatherDims.offCoord
  rw [dif_pos (show (1 : Fin 2) ∈ (rowDims N D B L M wf).sKept from (GatherDims.mem_sKept _ _).mpr
    ⟨(by decide : ¬ (1 : Fin 2) ∈ ([0] : List (Fin 2))), List.not_mem_nil⟩)]
  rfl

/-- THE ROW GATHER READ AT `(b, l, m, k)`, any sizes: the operand at row `min (idx[b, l, m, 0] signed) (N − 1)`, column
    `k`. -/
theorem gather_rows_apply {N D B L M w : Nat} (hN : 0 < N)
    (wf : GatherDims.WF ⟨2, ![N, D]⟩ ⟨4, ![B, L, M, 1]⟩ ⟨4, ![B, L, M, D]⟩ [3] [0] [] [0] [] 3 ![1, D])
    (x : (⟨2, ![N, D]⟩ : Shape).Idx → α) (idx : IVec ⟨4, ![B, L, M, 1]⟩ w)
    (b : Fin B) (l : Fin L) (m : Fin M) (k : Fin D) :
    Host.gather (rowDims N D B L M wf) x idx (ix4 b l m k)
      = x (ix2 (⟨min (idx (ix4 b l m 0)).toInt.toNat (N - 1), by omega⟩ : Fin N) k) := by
  unfold Host.gather
  congr 1
  funext a
  refine Fin.ext ?_
  match a with
  | ⟨0, _⟩ => exact rowDims_coord0 wf idx b l m k
  | ⟨1, _⟩ => exact rowDims_coord1 wf idx b l m k

/-- The row gather of a `[1024, 160]` table at a `[4, 200, 200, 1]` array of start indices, read at `(b, l, m, k)`:
    the table at row `min (idx[b, l, m, 0] signed) 1023`, column `k`. -/
theorem gather_rows_1024_apply {w : Nat}
    (wf : GatherDims.WF ⟨2, ![1024, 160]⟩ ⟨4, ![4, 200, 200, 1]⟩ ⟨4, ![4, 200, 200, 160]⟩ [3] [0] [] [0] [] 3 ![1, 160])
    (x : (⟨2, ![1024, 160]⟩ : Shape).Idx → α) (idx : IVec ⟨4, ![4, 200, 200, 1]⟩ w)
    (b : Fin 4) (l m : Fin 200) (k : Fin 160) :
    Host.gather (rowDims 1024 160 4 200 200 wf) x idx (ix4 b l m k)
      = x (ix2 (⟨min (idx (ix4 b l m 0)).toInt.toNat 1023, by omega⟩ : Fin 1024) k) :=
  gather_rows_apply (by decide) wf x idx b l m k

/-- The same for ANY record `d` of those dimension numbers (`hd` is `rfl` for a record written field by field). -/
theorem gather_rows_1024_apply_of_eq {w : Nat}
    (d : GatherDims ⟨2, ![1024, 160]⟩ ⟨4, ![4, 200, 200, 1]⟩ ⟨4, ![4, 200, 200, 160]⟩)
    (wf : GatherDims.WF ⟨2, ![1024, 160]⟩ ⟨4, ![4, 200, 200, 1]⟩ ⟨4, ![4, 200, 200, 160]⟩ [3] [0] [] [0] [] 3 ![1, 160])
    (hd : d = rowDims 1024 160 4 200 200 wf)
    (x : (⟨2, ![1024, 160]⟩ : Shape).Idx → α) (idx : IVec ⟨4, ![4, 200, 200, 1]⟩ w)
    (b : Fin 4) (l m : Fin 200) (k : Fin 160) :
    Host.gather d x idx (ix4 b l m k)
      = x (ix2 (⟨min (idx (ix4 b l m 0)).toInt.toNat 1023, by omega⟩ : Fin 1024) k) := by
  subst hd
  exact gather_rows_1024_apply wf x idx b l m k

end Rows

/-! ## Four pieces laid end to end along the last axis, read at an index -/

section Concat
variable {α : Type}

/-- Four `[4, 200, 200, 160]` pieces concatenated along axis 3, read at `(b, l, m, 160·t + k)`: piece `t` at
    `(b, l, m, k)` (the column over 160 names the piece, the column modulo 160 the place in it). -/
theorem concat4_apply
    (x0 x1 x2 x3 : (⟨4, ![4, 200, 200, 160]⟩ : Shape).Idx → α)
    (h : Shape.Concatenates [⟨4, ![4, 200, 200, 160]⟩, ⟨4, ![4, 200, 200, 160]⟩, ⟨4, ![4, 200, 200, 160]⟩,
      ⟨4, ![4, 200, 200, 160]⟩] ⟨4, ![4, 200, 200, 640]⟩ 3)
    (b : Fin 4) (l m : Fin 200) (t : Fin 4) (k : Fin 160) (hk : 160 * t.val + k.val < 640) :
    concatenate ⟨4, ![4, 200, 200, 640]⟩ 3
        [⟨⟨4, ![4, 200, 200, 160]⟩, x0⟩, ⟨⟨4, ![4, 200, 200, 160]⟩, x1⟩, ⟨⟨4, ![4, 200, 200, 160]⟩, x2⟩,
          ⟨⟨4, ![4, 200, 200, 160]⟩, x3⟩] h (ix4 b l m (⟨160 * t.val + k.val, hk⟩ : Fin 640))
      = (![x0, x1, x2, x3] t) (ix4 b l m k) := by
  refine concatenate_ofFn_apply (t := ⟨4, ![4, 200, 200, 640]⟩) (s₁ := ⟨4, ![4, 200, 200, 160]⟩) 3 ![x0, x1, x2, x3] h rfl
    160 rfl (ix4 b l m (⟨160 * t.val + k.val, hk⟩ : Fin 640)) t ?_ (ix4 b l m k) ?_ ?_
  · show (160 * t.val + k.val) / 160 = t.val
    have := k.isLt
    omega
  · show k.val = (160 * t.val + k.val) % 160
    have := k.isLt
    omega
  · intro c hc
    match c with
    | ⟨0, _⟩ => rfl
    | ⟨1, _⟩ => rfl
    | ⟨2, _⟩ => rfl
    | ⟨3, _⟩ => exact absurd rfl hc

/-- Columns `160·0 + k` of that concatenation: the first piece at column `k`. -/
theorem concat4_apply_0 (x0 x1 x2 x3 : (⟨4, ![4, 200, 200, 160]⟩ : Shape).Idx → α)
    (h : Shape.Concatenates [⟨4, ![4, 200, 200, 160]⟩, ⟨4, ![4, 200, 200, 160]⟩, ⟨4, ![4, 200, 200, 160]⟩,
      ⟨4, ![4, 200, 200, 160]⟩] ⟨4, ![4, 200, 200, 640]⟩ 3)
    (b : Fin 4) (l m : Fin 200) (k : Fin 160) (hk : 160 * (0 : Fin 4).val + k.val < 640) :
    concatenate ⟨4, ![4, 200, 200, 640]⟩ 3
        [⟨⟨4, ![4, 200, 200, 160]⟩, x0⟩, ⟨⟨4, ![4, 200, 200, 160]⟩, x1⟩, ⟨⟨4, ![4, 200, 200, 160]⟩, x2⟩,
          ⟨⟨4, ![4, 200, 200, 160]⟩, x3⟩] h (ix4 b l m (⟨160 * (0 : Fin 4).val + k.val, hk⟩ : Fin 640))
      = x0 (ix4 b l m k) :=
  concat4_apply x0 x1 x2 x3 h b l m 0 k hk

/-- Columns `160·1 + k` of that concatenation: the second piece at column `k`. -/
theorem concat4_apply_1 (x0 x1 x2 x3 : (⟨4, ![4, 200, 200, 160]⟩ : Shape).Idx → α)
    (h : Shape.Concatenates [⟨4, ![4, 200, 200, 160]⟩, ⟨4, ![4, 200, 200, 160]⟩, ⟨4, ![4, 200, 200, 160]⟩,
      ⟨4, ![4, 200, 200, 160]⟩] ⟨4, ![4, 200, 200, 640]⟩ 3)
    (b : Fin 4) (l m : Fin 200) (k : Fin 160) (hk : 160 * (1 : Fin 4).val + k.val < 640) :
    concatenate ⟨4, ![4, 200, 200, 640]⟩ 3
        [⟨⟨4, ![4, 200, 200, 160]⟩, x0⟩, ⟨⟨4, ![4, 200, 200, 160]⟩, x1⟩, ⟨⟨4, ![4, 200, 200, 160]⟩, x2⟩,
          ⟨⟨4, ![4, 200, 200, 160]⟩, x3⟩] h (ix4 b l m (⟨160 * (1 : Fin 4).val + k.val, hk⟩ : Fin 640))
      = x1 (ix4 b l m k) :=
  concat4_apply x0 x1 x2 x3 h b l m 1 k hk

/-- Columns `160·2 + k` of that concatenation: the third piece at column `k`. -/
theorem concat4_apply_2 (x0 x1 x2 x3 : (⟨4, ![4, 200, 200, 160]⟩ : Shape).Idx → α)
    (h : Shape.Concatenates [⟨4, ![4, 200, 200, 160]⟩, ⟨4, ![4, 200, 200, 160]⟩, ⟨4, ![4, 200, 200, 160]⟩,
      ⟨4, ![4, 200, 200, 160]⟩] ⟨4, ![4, 200, 200, 640]⟩ 3)
    (b : Fin 4) (l m : Fin 200) (k : Fin 160) (hk : 160 * (2 : Fin 4).val + k.val < 640) :
    concatenate ⟨4, ![4, 200, 200, 640]⟩ 3
        [⟨⟨4, ![4, 200, 200, 160]⟩, x0⟩, ⟨⟨4, ![4, 200, 200, 160]⟩, x1⟩, ⟨⟨4, ![4, 200, 200, 160]⟩, x2⟩,
          ⟨⟨4, ![4, 200, 200, 160]⟩, x3⟩] h (ix4 b l m (⟨160 * (2 : Fin 4).val + k.val, hk⟩ : Fin 640))
      = x2 (ix4 b l m k) :=
  concat4_apply x0 x1 x2 x3 h b l m 2 k hk

/-- Columns `160·3 + k` of that concatenation: the fourth piece at column `k`. -/
theorem concat4_apply_3 (x0 x1 x2 x3 : (⟨4, ![4, 200, 200, 160]⟩ : Shape).Idx → α)
    (h : Shape.Concatenates [⟨4, ![4, 200, 200, 160]⟩, ⟨4, ![4, 200, 200, 160]⟩, ⟨4, ![4, 200, 200, 160]⟩,
      ⟨4, ![4, 200, 200, 160]⟩] ⟨4, ![4, 200, 200, 640]⟩ 3)
    (b : Fin 4) (l m : Fin 200) (k : Fin 160) (hk : 160 * (3 : Fin 4).val + k.val < 640) :
    concatenate ⟨4, ![4, 200, 200, 640]⟩ 3
        [⟨⟨4, ![4, 200, 200, 160]⟩, x0⟩, ⟨⟨4, ![4, 200, 200, 160]⟩, x1⟩, ⟨⟨4, ![4, 200, 200, 160]⟩, x2⟩,
          ⟨⟨4, ![4, 200, 200, 160]⟩, x3⟩] h (ix4 b l m (⟨160 * (3 : Fin 4).val + k.val, hk⟩ : Fin 640))
      = x3 (ix4 b l m k) :=
  concat4_apply x0 x1 x2 x3 h b l m 3 k hk

/-- Four `[4, 5, 4, 1]` pieces concatenated along axis 3 into `[4, 5, 4, 4]`, read at `(b, i, c, t)`: piece `t` at
    `(b, i, c, 0)` (every piece has one column, so the column names the piece). -/
theorem concat4_unit_apply
    (x0 x1 x2 x3 : (⟨4, ![4, 5, 4, 1]⟩ : Shape).Idx → α)
    (h : Shape.Concatenates [⟨4, ![4, 5, 4, 1]⟩, ⟨4, ![4, 5, 4, 1]⟩, ⟨4, ![4, 5, 4, 1]⟩, ⟨4, ![4, 5, 4, 1]⟩]
      ⟨4, ![4, 5, 4, 4]⟩ 3)
    (b : Fin 4) (i : Fin 5) (c : Fin 4) (t : Fin 4) :
    concatenate ⟨4, ![4, 5, 4, 4]⟩ 3
        [⟨⟨4, ![4, 5, 4, 1]⟩, x0⟩, ⟨⟨4, ![4, 5, 4, 1]⟩, x1⟩, ⟨⟨4, ![4, 5, 4, 1]⟩, x2⟩, ⟨⟨4, ![4, 5, 4, 1]⟩, x3⟩] h
        (ix4 b i c t)
      = (![x0, x1, x2, x3] t) (ix4 b i c 0) := by
  refine concatenate_ofFn_apply (t := ⟨4, ![4, 5, 4, 4]⟩) (s₁ := ⟨4, ![4, 5, 4, 1]⟩) 3 ![x0, x1, x2, x3] h rfl
    1 rfl (ix4 b i c t) t ?_ (ix4 b i c 0) ?_ ?_
  · show t.val / 1 = t.val
    exact Nat.div_one _
  · show (0 : Nat) = t.val % 1
    exact (Nat.mod_one _).symm
  · intro a ha
    match a with
    | ⟨0, _⟩ => rfl
    | ⟨1, _⟩ => rfl
    | ⟨2, _⟩ => rfl
    | ⟨3, _⟩ => exact absurd rfl ha

end Concat

/-! ## A sum over 640 terms as four sums over 160 -/

section Sums
variable {M : Type} [AddCommMonoid M]

/-- A sum over `640 = 4 · 160` terms, grouped: the sum over `t < 4` of the sums over `k < 160` of the term at
    `160·t + k` (a re-indexing along the bijection `(t, k) ↦ 160·t + k`). -/
theorem sum_640_split (f : Fin 640 → M) :
    ∑ x, f x = ∑ t : Fin 4, ∑ k : Fin 160, f (⟨160 * t.val + k.val, by omega⟩ : Fin 640) := by
  rw [← Equiv.sum_comp (finProdFinEquiv : Fin 4 × Fin 160 ≃ Fin 640) f, Fintype.sum_prod_type]
  refine Finset.sum_congr rfl fun t _ => Finset.sum_congr rfl fun k _ => congrArg f (Fin.ext ?_)
  show k.val + 160 * t.val = 160 * t.val + k.val
  omega

/-- The same with the four groups written out, in the order `t = 0, 1, 2, 3`, associated to the left. -/
theorem sum_640_split4 (f : Fin 640 → M) :
    ∑ x, f x
      = ∑ k : Fin 160, f (⟨160 * (0 : Fin 4).val + k.val, by omega⟩ : Fin 640)
        + ∑ k : Fin 160, f (⟨160 * (1 : Fin 4).val + k.val, by omega⟩ : Fin 640)
        + ∑ k : Fin 160, f (⟨160 * (2 : Fin 4).val + k.val, by omega⟩ : Fin 640)
        + ∑ k : Fin 160, f (⟨160 * (3 : Fin 4).val + k.val, by omega⟩ : Fin 640) := by
  rw [sum_640_split, Fin.sum_univ_four]

end Sums

end Cert.Lib.GatherConcat

end
-- ==== Proof.RefArrays.lean ====
/-
  The reference's query, key and weight arrays as functions of the program's arguments, each read at an entry: the
  two row gathers of each pair laid side by side, and the mask bit as a number.
-/
import proofs.«144231_j34565896798471_1_alg».proof.Proof.RefStages
import proofs.«144231_j34565896798471_1_alg».proof.Proof.Spec
import proofs.«144231_j34565896798471_1_alg».proof.Proof.LibGatherConcat
import proofs.«144231_j34565896798471_1_alg».proof.Proof.LibRowGather3
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.Read Idealize.ShloMosaic
  Idealize.ShloMosaic.ValueIdx Cert.Attn

/-! ## The wrapped start indices at an entry

Each index array is compared with 0, has 100000 added where it is negative, and gets a trailing unit axis; read at an
entry this is the wrapped index of the argument at the same batch row (and history position). -/

/-- The item query start index at (b, 0, 0): the wrapped first query index of batch row b. -/
theorem v5_at (x0 : (⟨S4096x1, .i32⟩ : BufTy).Contents (Elt Ideal)) (b : Fin 4096) :
    val_main_v5 (F := Ideal) x0 (ix3 b 0 0) = wrapIx (x0 (ix2 b 0)) := by
  have e : idx_main_v5 (ix3 b 0 0 : S4096x1x1.Idx) = ix2 b 0 :=
    funext fun a => Fin.ext (by match a with | ⟨0, _⟩ => rfl | ⟨1, _⟩ => rfl)
  rw [val_main_v5_apply, e, val_main_v4_apply, val_main_v1_apply, val_main_v3_apply, val_main_v0_apply,
    val_main_v2_apply, val_main_c_apply, val_main_c_0_apply]
  rfl

/-- The category query start index at (b, 0, 0): the wrapped second query index of batch row b. -/
theorem v12_at (x1 : (⟨S4096x1, .i32⟩ : BufTy).Contents (Elt Ideal)) (b : Fin 4096) :
    val_main_v12 (F := Ideal) x1 (ix3 b 0 0) = wrapIx (x1 (ix2 b 0)) := by
  have e : idx_main_v12 (ix3 b 0 0 : S4096x1x1.Idx) = ix2 b 0 :=
    funext fun a => Fin.ext (by match a with | ⟨0, _⟩ => rfl | ⟨1, _⟩ => rfl)
  rw [val_main_v12_apply, e, val_main_v11_apply, val_main_v8_apply, val_main_v10_apply, val_main_v7_apply,
    val_main_v9_apply, val_main_c_1_apply, val_main_c_2_apply]
  rfl

/-- The item history start index at (b, 0, l, 0): the wrapped first history index at (b, 0, l). -/
theorem v20_at (x2 : (⟨S4096x1x50, .i32⟩ : BufTy).Contents (Elt Ideal)) (b : Fin 4096) (l : Fin 50) :
    val_main_v20 (F := Ideal) x2 (ix4 b 0 l 0) = wrapIx (x2 (ix3 b 0 l)) := by
  have e : idx_main_v20 (ix4 b 0 l 0 : S4096x1x50x1.Idx) = ix3 b 0 l :=
    funext fun a => Fin.ext (by match a with | ⟨0, _⟩ => rfl | ⟨1, _⟩ => rfl | ⟨2, _⟩ => rfl)
  rw [val_main_v20_apply, e, val_main_v19_apply, val_main_v16_apply, val_main_v18_apply, val_main_v15_apply,
    val_main_v17_apply, val_main_c_3_apply, val_main_c_4_apply]
  rfl

/-- The category history start index at (b, 0, l, 0): the wrapped second history index at (b, 0, l). -/
theorem v27_at (x3 : (⟨S4096x1x50, .i32⟩ : BufTy).Contents (Elt Ideal)) (b : Fin 4096) (l : Fin 50) :
    val_main_v27 (F := Ideal) x3 (ix4 b 0 l 0) = wrapIx (x3 (ix3 b 0 l)) := by
  have e : idx_main_v27 (ix4 b 0 l 0 : S4096x1x50x1.Idx) = ix3 b 0 l :=
    funext fun a => Fin.ext (by match a with | ⟨0, _⟩ => rfl | ⟨1, _⟩ => rfl | ⟨2, _⟩ => rfl)
  rw [val_main_v27_apply, e, val_main_v26_apply, val_main_v23_apply, val_main_v25_apply, val_main_v22_apply,
    val_main_v24_apply, val_main_c_5_apply, val_main_c_6_apply]
  rfl

/-! ## The four row gathers at an entry

A row gather reads the table at the row its start index names (signed, clamped into [0, 99999]) and at the entry's
own column; with the wrapped start index this is the row rowIx names. -/

/-- The item query row at (b, 0, k). -/
theorem v6_at (x0 : (⟨S4096x1, .i32⟩ : BufTy).Contents (Elt Ideal))
    (x5 : (⟨S100000x64, .f32⟩ : BufTy).Contents (Elt Ideal)) (b : Fin 4096) (k : Fin 64) :
    val_main_v6 (F := Ideal) x0 x5 (ix3 b 0 k) = x5 (ix2 (rowIx (x0 (ix2 b 0))) k) := by
  unfold val_main_v6
  have hd : gather_S100000x64_S4096x1x1_S4096x1x64_2_0_n_n_0_2_164
      = Cert.Lib.RowGather3.rowDims 100000 64 4096 1 gather_S100000x64_S4096x1x1_S4096x1x64_2_0_n_n_0_2_164_wf := rfl
  rw [hd]
  refine (Cert.Lib.RowGather3.gather_rows_apply (by decide) gather_S100000x64_S4096x1x1_S4096x1x64_2_0_n_n_0_2_164_wf
    x5 (val_main_v5 (F := Ideal) x0) b 0 k).trans ?_
  refine congrArg x5 (congrArg (fun r : Fin 100000 => ix2 r k) (Fin.ext ?_))
  show min (val_main_v5 (F := Ideal) x0 (ix3 b 0 0)).toInt.toNat (100000 - 1)
    = min (wrapIx (x0 (ix2 b 0))).toInt.toNat (100000 - 1)
  rw [v5_at]

/-- The category query row at (b, 0, k). -/
theorem v13_at (x1 : (⟨S4096x1, .i32⟩ : BufTy).Contents (Elt Ideal))
    (x6 : (⟨S100000x64, .f32⟩ : BufTy).Contents (Elt Ideal)) (b : Fin 4096) (k : Fin 64) :
    val_main_v13 (F := Ideal) x1 x6 (ix3 b 0 k) = x6 (ix2 (rowIx (x1 (ix2 b 0))) k) := by
  unfold val_main_v13
  have hd : gather_S100000x64_S4096x1x1_S4096x1x64_2_0_n_n_0_2_164
      = Cert.Lib.RowGather3.rowDims 100000 64 4096 1 gather_S100000x64_S4096x1x1_S4096x1x64_2_0_n_n_0_2_164_wf := rfl
  rw [hd]
  refine (Cert.Lib.RowGather3.gather_rows_apply (by decide) gather_S100000x64_S4096x1x1_S4096x1x64_2_0_n_n_0_2_164_wf
    x6 (val_main_v12 (F := Ideal) x1) b 0 k).trans ?_
  refine congrArg x6 (congrArg (fun r : Fin 100000 => ix2 r k) (Fin.ext ?_))
  show min (val_main_v12 (F := Ideal) x1 (ix3 b 0 0)).toInt.toNat (100000 - 1)
    = min (wrapIx (x1 (ix2 b 0))).toInt.toNat (100000 - 1)
  rw [v12_at]

/-- The item history row at (b, 0, l, k). -/
theorem v21_at (x2 : (⟨S4096x1x50, .i32⟩ : BufTy).Contents (Elt Ideal))
    (x5 : (⟨S100000x64, .f32⟩ : BufTy).Contents (Elt Ideal)) (b : Fin 4096) (l : Fin 50) (k : Fin 64) :
    val_main_v21 (F := Ideal) x2 x5 (ix4 b 0 l k) = x5 (ix2 (rowIx (x2 (ix3 b 0 l))) k) := by
  unfold val_main_v21
  have hd : gather_S100000x64_S4096x1x50x1_S4096x1x50x64_3_0_n_n_0_3_164
      = Cert.Lib.GatherConcat.rowDims 100000 64 4096 1 50
          gather_S100000x64_S4096x1x50x1_S4096x1x50x64_3_0_n_n_0_3_164_wf := rfl
  rw [hd]
  refine (Cert.Lib.GatherConcat.gather_rows_apply (by decide)
    gather_S100000x64_S4096x1x50x1_S4096x1x50x64_3_0_n_n_0_3_164_wf
    x5 (val_main_v20 (F := Ideal) x2) b 0 l k).trans ?_
  refine congrArg x5 (congrArg (fun r : Fin 100000 => ix2 r k) (Fin.ext ?_))
  show min (val_main_v20 (F := Ideal) x2 (ix4 b 0 l 0)).toInt.toNat (100000 - 1)
    = min (wrapIx (x2 (ix3 b 0 l))).toInt.toNat (100000 - 1)
  rw [v20_at]

/-- The category history row at (b, 0, l, k). -/
theorem v28_at (x3 : (⟨S4096x1x50, .i32⟩ : BufTy).Contents (Elt Ideal))
    (x6 : (⟨S100000x64, .f32⟩ : BufTy).Contents (Elt Ideal)) (b : Fin 4096) (l : Fin 50) (k : Fin 64) :
    val_main_v28 (F := Ideal) x3 x6 (ix4 b 0 l k) = x6 (ix2 (rowIx (x3 (ix3 b 0 l))) k) := by
  unfold val_main_v28
  have hd : gather_S100000x64_S4096x1x50x1_S4096x1x50x64_3_0_n_n_0_3_164
      = Cert.Lib.GatherConcat.rowDims 100000 64 4096 1 50
          gather_S100000x64_S4096x1x50x1_S4096x1x50x64_3_0_n_n_0_3_164_wf := rfl
  rw [hd]
  refine (Cert.Lib.GatherConcat.gather_rows_apply (by decide)
    gather_S100000x64_S4096x1x50x1_S4096x1x50x64_3_0_n_n_0_3_164_wf
    x6 (val_main_v27 (F := Ideal) x3) b 0 l k).trans ?_
  refine congrArg x6 (congrArg (fun r : Fin 100000 => ix2 r k) (Fin.ext ?_))
  show min (val_main_v27 (F := Ideal) x3 (ix4 b 0 l 0)).toInt.toNat (100000 - 1)
    = min (wrapIx (x3 (ix3 b 0 l))).toInt.toNat (100000 - 1)
  rw [v27_at]

/-! ## The three arrays -/

/-- The reference's query array at (b, 0, j). -/
theorem q_apply (x0 x1 : (⟨S4096x1, .i32⟩ : BufTy).Contents (Elt Ideal))
    (x5 x6 : (⟨S100000x64, .f32⟩ : BufTy).Contents (Elt Ideal)) (b : Fin 4096) (j : Fin 128) :
    val_main_v14 (F := Ideal) x0 x1 x5 x6 (ix3 b 0 j) = qv x0 x1 x5 x6 b j := by
  unfold val_main_v14 qv pair
  by_cases h : j.val < 64
  · -- a column below 64 lies in the first piece, at the same column
    rw [dif_pos h]
    refine (concatenate_pair_apply_left (t := S4096x1x128) (s₁ := S4096x1x64) (s₂ := S4096x1x64) 2
      (val_main_v6 (F := Ideal) x0 x5) (val_main_v13 (F := Ideal) x1 x6) _ (ix3 b 0 j) rfl
      (ix3 b 0 (⟨j.val, h⟩ : Fin 64)) ?_).trans ?_
    · intro c
      match c with
      | ⟨0, _⟩ => rfl
      | ⟨1, _⟩ => rfl
      | ⟨2, _⟩ => rfl
    · exact v6_at x0 x5 b ⟨j.val, h⟩
  · -- a column from 64 on lies in the second piece, 64 columns earlier
    rw [dif_neg h]
    refine (concatenate_pair_apply_right (t := S4096x1x128) (s₁ := S4096x1x64) (s₂ := S4096x1x64) 2
      (val_main_v6 (F := Ideal) x0 x5) (val_main_v13 (F := Ideal) x1 x6) _ (ix3 b 0 j) rfl rfl
      (ix3 b 0 (⟨j.val - 64, by omega⟩ : Fin 64)) ?_ ?_).trans ?_
    · intro c hc
      match c with
      | ⟨0, _⟩ => rfl
      | ⟨1, _⟩ => rfl
      | ⟨2, _⟩ => exact absurd rfl hc
    · show j.val - 64 + 64 = j.val
      omega
    · exact v13_at x1 x6 b ⟨j.val - 64, by omega⟩

/-- The reference's key array at (b, 0, l, j). -/
theorem k_apply (x2 x3 : (⟨S4096x1x50, .i32⟩ : BufTy).Contents (Elt Ideal))
    (x5 x6 : (⟨S100000x64, .f32⟩ : BufTy).Contents (Elt Ideal)) (b : Fin 4096) (l : Fin 50) (j : Fin 128) :
    val_main_v29 (F := Ideal) x2 x3 x5 x6 (ix4 b 0 l j) = kv x2 x3 x5 x6 b l j := by
  unfold val_main_v29 kv pair
  by_cases h : j.val < 64
  · -- a column below 64 lies in the first piece, at the same column
    rw [dif_pos h]
    refine (concatenate_pair_apply_left (t := S4096x1x50x128) (s₁ := S4096x1x50x64) (s₂ := S4096x1x50x64) 3
      (val_main_v21 (F := Ideal) x2 x5) (val_main_v28 (F := Ideal) x3 x6) _ (ix4 b 0 l j) rfl
      (ix4 b 0 l (⟨j.val, h⟩ : Fin 64)) ?_).trans ?_
    · intro c
      match c with
      | ⟨0, _⟩ => rfl
      | ⟨1, _⟩ => rfl
      | ⟨2, _⟩ => rfl
      | ⟨3, _⟩ => rfl
    · exact v21_at x2 x5 b l ⟨j.val, h⟩
  · -- a column from 64 on lies in the second piece, 64 columns earlier
    rw [dif_neg h]
    refine (concatenate_pair_apply_right (t := S4096x1x50x128) (s₁ := S4096x1x50x64) (s₂ := S4096x1x50x64) 3
      (val_main_v21 (F := Ideal) x2 x5) (val_main_v28 (F := Ideal) x3 x6) _ (ix4 b 0 l j) rfl rfl
      (ix4 b 0 l (⟨j.val - 64, by omega⟩ : Fin 64)) ?_ ?_).trans ?_
    · intro c hc
      match c with
      | ⟨0, _⟩ => rfl
      | ⟨1, _⟩ => rfl
      | ⟨2, _⟩ => rfl
      | ⟨3, _⟩ => exact absurd rfl hc
    · show j.val - 64 + 64 = j.val
      omega
    · exact v28_at x3 x6 b l ⟨j.val - 64, by omega⟩

/-- The reference's weight array at (b, 0, 0, l). -/
theorem m_apply (x4 : (⟨S4096x1x50, .i1⟩ : BufTy).Contents (Elt Ideal)) (b : Fin 4096) (l : Fin 50) :
    val_main_v45 (F := Ideal) x4 (ix4 b 0 0 l) = mv x4 b l := by
  have e : idx_main_v45 (ix4 b 0 0 l : S4096x1x1x50.Idx) = ix3 b 0 l :=
    funext fun a => Fin.ext (by match a with | ⟨0, _⟩ => rfl | ⟨1, _⟩ => rfl | ⟨2, _⟩ => rfl)
  rw [val_main_v45_apply, e, val_main_v44_apply]
  rfl

end Cert.ReferenceIdeal.RefValue

end
-- ==== Proof.RefRead.lean ====
/-
  The reference's result at an entry, in closed form: given what its query, key and weight arrays hold at an entry,
  the result at (b, 0, e) is the closed-form row result (the one-sum spelling) of batch row b.

  The reference is read one operation at a time, from the result down:
    * the perceptron's input (b, 0, l, j) is a join along the last axis of three arrays of 128 columns each: the query
      row repeated over the 50 history positions, the key array, and their entrywise product; at column j it is
      the piece j falls in, which is the closed form's side-by-side vector (q, k_l, q ∘ k_l) at j;
    * the hidden layer at (b, 0, l, u) is the larger of 0 and the sum over the 384 inputs of input times weight, plus
      the unit's bias;
    * the score at (b, 0, l, 0) is the sum over the 256 hidden units of unit times output weight, plus the output bias;
      swapping the last two axes reads it at (b, 0, 0, l), where it is multiplied by the 0/1 weight of position l;
    * the result at (b, 0, 0, e) is the sum over the 50 positions of weighted score times key entry, and dropping the
      unit axis reads it at (b, 0, e).
-/
import proofs.«144231_j34565896798471_1_alg».proof.Proof.RefStages
import proofs.«144231_j34565896798471_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic
  Idealize.ShloMosaic.ValueIdx Cert.Attn

open scoped BigOperators

/-! ## Three arrays of 128 columns joined along the last axis, read at a column -/

/-- A join of three [4096, 1, 50, 128] arrays along the last axis, at (b, 0, l, j): the first array at column j when
    j < 128, the second at column j - 128 when 128 ≤ j < 256, the third at column j - 256 otherwise. -/
theorem cat3_apply {α : Type} (y₁ y₂ y₃ : S4096x1x50x128.Idx → α)
    (h : Shape.Concatenates [S4096x1x50x128, S4096x1x50x128, S4096x1x50x128] S4096x1x50x384 3)
    (b : Fin 4096) (l : Fin 50) (j : Fin 384) :
    concatenate S4096x1x50x384 3 [⟨S4096x1x50x128, y₁⟩, ⟨S4096x1x50x128, y₂⟩, ⟨S4096x1x50x128, y₃⟩] h (ix4 b 0 l j)
      = if h1 : j.val < 128 then y₁ (ix4 b 0 l ⟨j.val, h1⟩)
        else if h2 : j.val < 256 then y₂ (ix4 b 0 l ⟨j.val - 128, by omega⟩)
        else y₃ (ix4 b 0 l ⟨j.val - 256, by omega⟩) := by
  by_cases h1 : j.val < 128
  · rw [dif_pos h1]
    exact concatenate_apply_piece (t := S4096x1x50x384) 3
      [⟨S4096x1x50x128, y₁⟩, ⟨S4096x1x50x128, y₂⟩, ⟨S4096x1x50x128, y₃⟩] h (ix4 b 0 l j) 0
      (by show 0 < 3; omega) S4096x1x50x128 y₁ rfl rfl 0 rfl
      (ix4 b 0 l ⟨j.val, h1⟩)
      (fun c => match c with
        | ⟨0, _⟩ => fun _ => rfl
        | ⟨1, _⟩ => fun _ => rfl
        | ⟨2, _⟩ => fun _ => rfl
        | ⟨3, _⟩ => fun hc => absurd rfl hc)
      (Nat.zero_add _)
  · rw [dif_neg h1]
    by_cases h2 : j.val < 256
    · rw [dif_pos h2]
      exact concatenate_apply_piece (t := S4096x1x50x384) 3
        [⟨S4096x1x50x128, y₁⟩, ⟨S4096x1x50x128, y₂⟩, ⟨S4096x1x50x128, y₃⟩] h (ix4 b 0 l j) 1
        (by show 1 < 3; omega) S4096x1x50x128 y₂ rfl rfl 128 rfl
        (ix4 b 0 l ⟨j.val - 128, by omega⟩)
        (fun c => match c with
          | ⟨0, _⟩ => fun _ => rfl
          | ⟨1, _⟩ => fun _ => rfl
          | ⟨2, _⟩ => fun _ => rfl
          | ⟨3, _⟩ => fun hc => absurd rfl hc)
        (by show 128 + (j.val - 128) = j.val; omega)
    · rw [dif_neg h2]
      exact concatenate_apply_piece (t := S4096x1x50x384) 3
        [⟨S4096x1x50x128, y₁⟩, ⟨S4096x1x50x128, y₂⟩, ⟨S4096x1x50x128, y₃⟩] h (ix4 b 0 l j) 2
        (by show 2 < 3; omega) S4096x1x50x128 y₃ rfl rfl 256 rfl
        (ix4 b 0 l ⟨j.val - 256, by have := j.isLt; omega⟩)
        (fun c => match c with
          | ⟨0, _⟩ => fun _ => rfl
          | ⟨1, _⟩ => fun _ => rfl
          | ⟨2, _⟩ => fun _ => rfl
          | ⟨3, _⟩ => fun hc => absurd rfl hc)
        (by show 256 + (j.val - 256) = j.val; omega)

/-! ## The composed indices at explicit coordinates -/

theorem idx30_ix (b : Fin 4096) (j : Fin 128) : idx_main_v30 (ix4 b 0 0 j) = ix3 b 0 j :=
  funext fun a => Fin.ext (by match a with | ⟨0, _⟩ => rfl | ⟨1, _⟩ => rfl | ⟨2, _⟩ => rfl)

theorem idx31_ix (b : Fin 4096) (l : Fin 50) (j : Fin 128) : idx_main_v31 (ix4 b 0 l j) = ix4 b 0 0 j :=
  funext fun a => Fin.ext (by match a with | ⟨0, _⟩ => rfl | ⟨1, _⟩ => rfl | ⟨2, _⟩ => rfl | ⟨3, _⟩ => rfl)

theorem lidx34_ix (b : Fin 4096) (l : Fin 50) (u : Fin 256) (k : Fin 384) :
    lidx_main_v34 (ix4 b 0 l u) k = ix4 b 0 l k :=
  funext fun a => Fin.ext (by match a with | ⟨0, _⟩ => rfl | ⟨1, _⟩ => rfl | ⟨2, _⟩ => rfl | ⟨3, _⟩ => rfl)

theorem ridx34_ix (b : Fin 4096) (l : Fin 50) (u : Fin 256) (k : Fin 384) :
    ridx_main_v34 (ix4 b 0 l u) k = ix2 k u :=
  funext fun a => Fin.ext (by match a with | ⟨0, _⟩ => rfl | ⟨1, _⟩ => rfl)

theorem idx35_36_ix (b : Fin 4096) (l : Fin 50) (u : Fin 256) :
    idx_main_v35 (idx_main_v36 (ix4 b 0 l u)) = ix1 u :=
  funext fun a => Fin.ext (by match a with | ⟨0, _⟩ => rfl)

theorem lidx39_ix (b : Fin 4096) (l : Fin 50) (k : Fin 256) :
    lidx_main_v39 (ix4 b 0 l 0) k = ix4 b 0 l k :=
  funext fun a => Fin.ext (by match a with | ⟨0, _⟩ => rfl | ⟨1, _⟩ => rfl | ⟨2, _⟩ => rfl | ⟨3, _⟩ => rfl)

theorem ridx39_ix (b : Fin 4096) (l : Fin 50) (k : Fin 256) :
    ridx_main_v39 (ix4 b 0 l 0) k = ix2 k 0 :=
  funext fun a => Fin.ext (by match a with | ⟨0, _⟩ => rfl | ⟨1, _⟩ => rfl)

theorem idx40_41_ix (b : Fin 4096) (l : Fin 50) :
    idx_main_v40 (idx_main_v41 (ix4 b 0 l 0)) = ix1 0 :=
  funext fun a => Fin.ext (by match a with | ⟨0, _⟩ => rfl)

theorem idx43_ix (b : Fin 4096) (l : Fin 50) : idx_main_v43 (ix4 b 0 0 l) = ix4 b 0 l 0 :=
  funext fun a => Fin.ext (by match a with | ⟨0, _⟩ => rfl | ⟨1, _⟩ => rfl | ⟨2, _⟩ => rfl | ⟨3, _⟩ => rfl)

theorem lidx47_ix (b : Fin 4096) (e : Fin 128) (k : Fin 50) :
    lidx_main_v47 (ix4 b 0 0 e) k = ix4 b 0 0 k :=
  funext fun a => Fin.ext (by match a with | ⟨0, _⟩ => rfl | ⟨1, _⟩ => rfl | ⟨2, _⟩ => rfl | ⟨3, _⟩ => rfl)

theorem ridx47_ix (b : Fin 4096) (e : Fin 128) (k : Fin 50) :
    ridx_main_v47 (ix4 b 0 0 e) k = ix4 b 0 k e :=
  funext fun a => Fin.ext (by match a with | ⟨0, _⟩ => rfl | ⟨1, _⟩ => rfl | ⟨2, _⟩ => rfl | ⟨3, _⟩ => rfl)

/-- Dropping the unit axis: position (b * 1 + 0) * 128 + e of the flat order is row b, column e. -/
theorem idx48_ix (b : Fin 4096) (e : Fin 128) : idx_main_v48 (ix3 b 0 e) = ix4 b 0 0 e :=
  funext fun a => Fin.ext (by
    have hb := b.isLt
    have he := e.isLt
    match a with
    | ⟨0, _⟩ => show ((b.val * 1 + 0) * 128 + e.val) / 128 = b.val; omega
    | ⟨1, _⟩ => rfl
    | ⟨2, _⟩ => rfl
    | ⟨3, _⟩ => show ((b.val * 1 + 0) * 128 + e.val) % 128 = e.val; omega)

/-! ## The closed form's inner layers, named -/

/-- Hidden unit u at history position l: the larger of 0 and the 384 inputs against column u of W, plus the bias. -/
def hid (q : Fin 128 → EReal) (k : Fin 50 → Fin 128 → EReal) (bh : Fin 256 → EReal)
    (W : Fin 384 → Fin 256 → EReal) (l : Fin 50) (u : Fin 256) : EReal :=
  max ((∑ j : Fin 384, catv q k l j * W j u) + bh u) 0

/-- The score of history position l: the 256 hidden units against the output weights, plus the output bias. -/
def score (q : Fin 128 → EReal) (k : Fin 50 → Fin 128 → EReal) (bh wo : Fin 256 → EReal) (bo : EReal)
    (W : Fin 384 → Fin 256 → EReal) (l : Fin 50) : EReal :=
  (∑ u : Fin 256, hid q k bh W l u * wo u) + bo

/-- The row result is the sum over the history of (score * weight) * key entry. -/
theorem rowOutR_eq_sum_score (q : Fin 128 → EReal) (k : Fin 50 → Fin 128 → EReal) (m : Fin 50 → EReal)
    (bh wo : Fin 256 → EReal) (bo : EReal) (W : Fin 384 → Fin 256 → EReal) (e : Fin 128) :
    rowOutR q k m bh wo bo W e = ∑ l : Fin 50, (score q k bh wo bo W l * m l) * k l e := rfl

/-! ## The reference's stages at an entry -/

section Chain

variable (x0 x1 : (⟨S4096x1, .i32⟩ : BufTy).Contents (Elt Ideal))
  (x2 x3 : (⟨S4096x1x50, .i32⟩ : BufTy).Contents (Elt Ideal)) (x4 : (⟨S4096x1x50, .i1⟩ : BufTy).Contents (Elt Ideal))
  (x5 x6 : (⟨S100000x64, .f32⟩ : BufTy).Contents (Elt Ideal)) (x7 : (⟨S384x256, .f32⟩ : BufTy).Contents (Elt Ideal))
  (x8 : (⟨S256, .f32⟩ : BufTy).Contents (Elt Ideal)) (x9 : (⟨S256x1, .f32⟩ : BufTy).Contents (Elt Ideal))
  (x10 : (⟨S1, .f32⟩ : BufTy).Contents (Elt Ideal))
  (Q : Fin 4096 → Fin 128 → EReal) (K : Fin 4096 → Fin 50 → Fin 128 → EReal) (M : Fin 4096 → Fin 50 → EReal)

/-- The query repeated over the history: at (b, 0, l, j) it is the query array at (b, 0, j). -/
theorem v31_apply_of (hq : ∀ b j, val_main_v14 (F := Ideal) x0 x1 x5 x6 (ix3 b 0 j) = Q b j)
    (b : Fin 4096) (l : Fin 50) (j : Fin 128) :
    val_main_v31 (F := Ideal) x0 x1 x5 x6 (ix4 b 0 l j) = Q b j := by
  refine (val_main_v31_apply x0 x1 x5 x6 (ix4 b 0 l j)).trans ?_
  rw [idx31_ix b l j]
  refine (val_main_v30_apply x0 x1 x5 x6 (ix4 b 0 0 j)).trans ?_
  rw [idx30_ix b j]
  exact hq b j

/-- The perceptron's input at (b, 0, l, j) is the closed form's side-by-side vector at j. -/
theorem v33_apply_of (hq : ∀ b j, val_main_v14 (F := Ideal) x0 x1 x5 x6 (ix3 b 0 j) = Q b j)
    (hk : ∀ b l j, val_main_v29 (F := Ideal) x2 x3 x5 x6 (ix4 b 0 l j) = K b l j)
    (b : Fin 4096) (l : Fin 50) (j : Fin 384) :
    val_main_v33 (F := Ideal) x0 x1 x2 x3 x5 x6 (ix4 b 0 l j) = catv (Q b) (K b) l j := by
  unfold val_main_v33
  refine (cat3_apply _ _ _ _ b l j).trans ?_
  unfold catv
  by_cases h1 : j.val < 128
  · rw [dif_pos h1, dif_pos h1]
    exact v31_apply_of x0 x1 x5 x6 Q hq b l ⟨j.val, h1⟩
  · rw [dif_neg h1, dif_neg h1]
    by_cases h2 : j.val < 256
    · rw [dif_pos h2, dif_pos h2]
      exact hk b l ⟨j.val - 128, by omega⟩
    · rw [dif_neg h2, dif_neg h2]
      refine (val_main_v32_apply x0 x1 x2 x3 x5 x6 _).trans ?_
      rw [Ideal.mulf_def, v31_apply_of x0 x1 x5 x6 Q hq b l ⟨j.val - 256, by have := j.isLt; omega⟩,
        hk b l ⟨j.val - 256, by have := j.isLt; omega⟩]

/-- The hidden layer at (b, 0, l, u). -/
theorem v38_apply_of (hq : ∀ b j, val_main_v14 (F := Ideal) x0 x1 x5 x6 (ix3 b 0 j) = Q b j)
    (hk : ∀ b l j, val_main_v29 (F := Ideal) x2 x3 x5 x6 (ix4 b 0 l j) = K b l j)
    (b : Fin 4096) (l : Fin 50) (u : Fin 256) :
    val_main_v38 (F := Ideal) x0 x1 x2 x3 x5 x6 x7 x8 (ix4 b 0 l u)
      = hid (Q b) (K b) (fun u => x8 (ix1 u)) (fun j u => x7 (ix2 j u)) l u := by
  refine (val_main_v38_apply x0 x1 x2 x3 x5 x6 x7 x8 (ix4 b 0 l u)).trans ?_
  rw [val_main_v37_apply, val_main_v34_apply, val_main_v36_apply, val_main_v35_apply, val_main_call0_v0_apply,
    val_main_call0_cst_apply, idx35_36_ix b l u, Ideal.maximumf_def, Ideal.addf_def, Ideal.ofBits_def,
    Ideal.ofBits_zero_f32]
  unfold hid
  congr 2
  refine Finset.sum_congr rfl fun k _ => ?_
  rw [lidx34_ix b l u k, ridx34_ix b l u k, v33_apply_of x0 x1 x2 x3 x5 x6 Q K hq hk b l k]

/-- The score at (b, 0, l, 0). -/
theorem v42_apply_of (hq : ∀ b j, val_main_v14 (F := Ideal) x0 x1 x5 x6 (ix3 b 0 j) = Q b j)
    (hk : ∀ b l j, val_main_v29 (F := Ideal) x2 x3 x5 x6 (ix4 b 0 l j) = K b l j)
    (b : Fin 4096) (l : Fin 50) :
    val_main_v42 (F := Ideal) x0 x1 x2 x3 x5 x6 x7 x8 x9 x10 (ix4 b 0 l 0)
      = score (Q b) (K b) (fun u => x8 (ix1 u)) (fun u => x9 (ix2 u 0)) (x10 (ix1 0)) (fun j u => x7 (ix2 j u)) l := by
  refine (val_main_v42_apply x0 x1 x2 x3 x5 x6 x7 x8 x9 x10 (ix4 b 0 l 0)).trans ?_
  rw [val_main_v39_apply, val_main_v41_apply, val_main_v40_apply, idx40_41_ix b l, Ideal.addf_def]
  unfold score
  congr 1
  refine Finset.sum_congr rfl fun k _ => ?_
  rw [lidx39_ix b l k, ridx39_ix b l k, v38_apply_of x0 x1 x2 x3 x5 x6 x7 x8 Q K hq hk b l k]

/-- The weighted score at (b, 0, 0, l). -/
theorem v46_apply_of (hq : ∀ b j, val_main_v14 (F := Ideal) x0 x1 x5 x6 (ix3 b 0 j) = Q b j)
    (hk : ∀ b l j, val_main_v29 (F := Ideal) x2 x3 x5 x6 (ix4 b 0 l j) = K b l j)
    (hm : ∀ b l, val_main_v45 (F := Ideal) x4 (ix4 b 0 0 l) = M b l)
    (b : Fin 4096) (l : Fin 50) :
    val_main_v46 (F := Ideal) x0 x1 x2 x3 x4 x5 x6 x7 x8 x9 x10 (ix4 b 0 0 l)
      = score (Q b) (K b) (fun u => x8 (ix1 u)) (fun u => x9 (ix2 u 0)) (x10 (ix1 0)) (fun j u => x7 (ix2 j u)) l
          * M b l := by
  refine (val_main_v46_apply x0 x1 x2 x3 x4 x5 x6 x7 x8 x9 x10 (ix4 b 0 0 l)).trans ?_
  rw [val_main_v43_apply, idx43_ix b l, Ideal.mulf_def,
    v42_apply_of x0 x1 x2 x3 x5 x6 x7 x8 x9 x10 Q K hq hk b l, hm b l]

end Chain

/-- The reference's result at (b, 0, e), from its query, key and weight arrays read at an entry. -/
theorem result_apply_of (x0 x1 : (⟨S4096x1, .i32⟩ : BufTy).Contents (Elt Ideal))
    (x2 x3 : (⟨S4096x1x50, .i32⟩ : BufTy).Contents (Elt Ideal)) (x4 : (⟨S4096x1x50, .i1⟩ : BufTy).Contents (Elt Ideal))
    (x5 x6 : (⟨S100000x64, .f32⟩ : BufTy).Contents (Elt Ideal)) (x7 : (⟨S384x256, .f32⟩ : BufTy).Contents (Elt Ideal))
    (x8 : (⟨S256, .f32⟩ : BufTy).Contents (Elt Ideal)) (x9 : (⟨S256x1, .f32⟩ : BufTy).Contents (Elt Ideal))
    (x10 : (⟨S1, .f32⟩ : BufTy).Contents (Elt Ideal))
    (Q : Fin 4096 → Fin 128 → EReal) (K : Fin 4096 → Fin 50 → Fin 128 → EReal) (M : Fin 4096 → Fin 50 → EReal)
    (hq : ∀ b j, val_main_v14 (F := Ideal) x0 x1 x5 x6 (ix3 b 0 j) = Q b j)
    (hk : ∀ b l j, val_main_v29 (F := Ideal) x2 x3 x5 x6 (ix4 b 0 l j) = K b l j)
    (hm : ∀ b l, val_main_v45 (F := Ideal) x4 (ix4 b 0 0 l) = M b l)
    (b : Fin 4096) (e : Fin 128) :
    val_main_v48 (F := Ideal) x0 x1 x2 x3 x4 x5 x6 x7 x8 x9 x10 (ix3 b 0 e)
      = rowOutR (Q b) (K b) (M b) (fun u => x8 (ix1 u)) (fun u => x9 (ix2 u 0)) (x10 (ix1 0))
          (fun j u => x7 (ix2 j u)) e := by
  refine (val_main_v48_apply x0 x1 x2 x3 x4 x5 x6 x7 x8 x9 x10 (ix3 b 0 e)).trans ?_
  rw [idx48_ix b e, val_main_v47_apply, rowOutR_eq_sum_score]
  refine Finset.sum_congr rfl fun l _ => ?_
  rw [lidx47_ix b e l, ridx47_ix b e l,
    v46_apply_of x0 x1 x2 x3 x4 x5 x6 x7 x8 x9 x10 Q K M hq hk hm b l, hk b l e]

end Cert.ReferenceIdeal.RefValue

end
-- ==== Proof.lean ====
/-
  The certificate's claim: the kernel program and the reference compute the same array.

  Both programs gather, for each of 4096 batch rows, a query vector (an item row and a category row of two embedding
  tables, side by side) and fifty key vectors, score every key by a two-layer perceptron applied to the query, the
  key and their entrywise product laid side by side, weight the scores by a 0/1 mask and sum the weighted keys.  The
  kernel contracts the perceptron's 384 inputs in three groups of 128 against the three row blocks of the weight
  matrix and works on 64 batch rows per grid point; the reference contracts them in one sum.  On the extended reals the
  two spellings are one function of the eleven arguments (a sum over 384 indices is the sum of its three thirds; addition
  is commutative and associative), which is what the value claim states; no finiteness of the inputs is used.

  The three frame claims are the generated frame runs (for the reference, its run read back with the result
  dropped); the idealization rewrote no operation, so that claim is trivial.
-/
import proofs.«144231_j34565896798471_1_alg».proof.Defs
import proofs.«144231_j34565896798471_1_alg».proof.Proof.Gen.Kernel
import proofs.«144231_j34565896798471_1_alg».proof.Proof.Gen.Kernel.Skeleton
import proofs.«144231_j34565896798471_1_alg».proof.Proof.Gen.Kernel.Launch
import proofs.«144231_j34565896798471_1_alg».proof.Proof.Gen.Kernel.Points
import proofs.«144231_j34565896798471_1_alg».proof.Proof.Gen.Kernel.Frame
import proofs.«144231_j34565896798471_1_alg».proof.Proof.Gen.KernelIdeal
import proofs.«144231_j34565896798471_1_alg».proof.Proof.Gen.KernelIdeal.Skeleton
import proofs.«144231_j34565896798471_1_alg».proof.Proof.Gen.KernelIdeal.Launch
import proofs.«144231_j34565896798471_1_alg».proof.Proof.Gen.KernelIdeal.Points
import proofs.«144231_j34565896798471_1_alg».proof.Proof.Gen.KernelIdeal.Frame
import proofs.«144231_j34565896798471_1_alg».proof.Proof.Gen.ReferenceIdeal
import proofs.«144231_j34565896798471_1_alg».proof.Proof.Gen.Pre_finite_inputs
import proofs.«144231_j34565896798471_1_alg».proof.Proof.Closed
import proofs.«144231_j34565896798471_1_alg».proof.Proof.KernelValue
import proofs.«144231_j34565896798471_1_alg».proof.Proof.RefRun
import proofs.«144231_j34565896798471_1_alg».proof.Proof.RefStages
import proofs.«144231_j34565896798471_1_alg».proof.Proof.RefArrays
import proofs.«144231_j34565896798471_1_alg».proof.Proof.RefRead
import Idealize.ShloMosaic.Adequacy
import Idealize.ShloMosaic.Init
import Idealize.ShloMosaic.Lib.ValueIdx

noncomputable section

namespace Cert.Proof

open Idealize.ShloMosaic Idealize.ShloMosaic.TcCoe Idealize.SL.Sem Idealize.ShloMosaic.ValueIdx Cert.Attn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel program ends with its result at the closed form of its arguments, the reference with its result at
    its last stage of its arguments; the arguments agree, and the last stage at an entry is the closed form. -/
theorem algebraic : Cert.algebraic_KernelIdeal_ReferenceIdeal := by
  intro m ρ m' ρ' _ hagree
  refine ⟨fun c => (fun i : Cert.KernelIdeal.S4096x1x128.Idx => Cert.KernelIdeal.Whole.G m c (ix2 (i 0) (i 2))),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v48_eq, h0, h1, h2, h3, h4, h5, h6, h7, h8, h9, h10]
  funext i
  obtain ⟨b, z, e, rfl⟩ : ∃ (b : Fin 4096) (z : Fin 1) (e : Fin 128), i = ix3 b z e := ⟨i 0, i 1, i 2, eq_ix3 i⟩
  obtain rfl : z = 0 := Subsingleton.elim _ _
  exact Cert.ReferenceIdeal.RefValue.result_apply_of _ _ _ _ _ _ _ _ _ _ _ _ _ _
    (fun b j => Cert.ReferenceIdeal.RefValue.q_apply _ _ _ _ b j)
    (fun b l j => Cert.ReferenceIdeal.RefValue.k_apply _ _ _ _ b l j)
    (fun b l => Cert.ReferenceIdeal.RefValue.m_apply _ b l) b e

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
